-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S8192 : Shape := ⟨1, ![8192]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : IVec S8192 32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  main_v3
-- ==== Kernel.lean ====
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x768 : Shape := ⟨2, ![1024, 768]⟩
abbrev S1024x1 : Shape := ⟨2, ![1024, 1]⟩
abbrev S1x1024 : Shape := ⟨2, ![1, 1024]⟩
abbrev S768x1024 : Shape := ⟨2, ![768, 1024]⟩
abbrev S1024x1024 : Shape := ⟨2, ![1024, 1024]⟩
abbrev S1024 : Shape := ⟨1, ![1024]⟩

abbrev nBuf : Space → Nat
  | .hbm => 21
  | .vmem => 18
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  transposes_S1024x768_p1_0_S768x1024 : S1024x768.Transposes [1, 0] S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  reducesTo_S8192x1_S_d0_1 : S8192x1.ReducesTo [0, 1] S_
  dot_S1024x768_S768x1024_S1024x1024_1_0_0_1_n_n_wf : DotDims.WF S1024x768 S768x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .f32 = 32 ∨ (Rect.block (s := S8192x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S768x8192 : Shape := ⟨2, ![768, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S768x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x768_S768x8192_1_0 : S8192x768.Transposes [1, 0] S768x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x768_S768x8192_S8192x8192_1_0_0_1_n_n_wf : DotDims.WF S8192x768 S768x8192 S8192x8192 [1] [0] [0] [1] [] []

variable [Facts₀]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf

class Facts : Prop extends Facts₀ where

variable [Facts]
-- ==== Proof.K.Data.lean ====
/-
  The proof data of the one pipelined region, for any float instance.

  The grid is 8 × 8, point t = 8·i + j.  At point t the body receives the row block i and the column block j of
  the matrix, the matching blocks of the row norms, column norms, row labels and column labels, and two running
  column vectors kept in scratch: the masked row sums and the plain row sums of the 1024 × 1024 tile of
  exponentials.  At j = 0 both are reset to zero before the tile's sums are added; after the addition both are copied
  to the two output blocks.  `accAt` is that recursion; the proof data name each input buffer at its block, each
  output buffer at the running sums, and the scratch at the running sums after the first point.
-/
import proofs.«166931_j7370163880494_1_alg».proof.Proof.Gen.Kernel.Launch
import proofs.«166931_j7370163880494_1_alg».proof.Proof.Gen.Kernel.Skeleton
import proofs.«166931_j7370163880494_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The memory at launch, as a valuation of core `c`'s buffers. -/
abbrev V₀ (c : Dev nD) : Valuation τ sig (Elt F) := fun b => m (c, b)
/-- The buffers when the region is entered: the seven host operations before it have run. -/
abbrev V1 (c : Dev nD) : Valuation τ sig (Elt F) := StableHlo.after hostOps0 (V₀ m c)
/-- The same, read at a TensorCore reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One tile's update of the two running sums: the masked row sums added to the first, the row sums to the second. -/
def step (x2 x3 : Vec F S1024x768 .f32) (x4 : Vec F S1024x1 .f32) (x5 : Vec F S1x1024 .f32) (x6 : Vec F S1024x1 .i32) (x7 : Vec F S1x1024 .i32)
    (p : Vec F S1024x1 .f32 × Vec F S1024x1 .f32) : Vec F S1024x1 .f32 × Vec F S1024x1 .f32 :=
  (k0_pay1 (k0_pay6 x2 x3 x4 x5 x6 x7 p.1), k0_pay2 (k0_pay5 x2 x3 x4 x5) p.2)

/-- Both running sums at zero. -/
def zero2 : Vec F S1024x1 .f32 × Vec F S1024x1 .f32 := (k0_pay3 (F := F), k0_pay4 (F := F))

/-- The update at point `t`, on that point's blocks. -/
def stepAt (c : Dev nD) (t : Fin cfg0.N) (p : Vec F S1024x1 .f32 × Vec F S1024x1 .f32) : Vec F S1024x1 .f32 × Vec F S1024x1 .f32 :=
  step (iblk m c 0 t) (iblk m c 1 t) (iblk m c 2 t) (iblk m c 3 t) (iblk m c 4 t) (iblk m c 5 t) p

/-- The running sums after point `n`: restarted from zero at the first column block of each row block. -/
def accAt (c : Dev nD) : (n : ℕ) → n < cfg0.N → Vec F S1024x1 .f32 × Vec F S1024x1 .f32
  | 0, hn => stepAt m c ⟨0, hn⟩ zero2
  | n + 1, hn => stepAt m c ⟨n + 1, hn⟩ (if (n + 1) % 8 = 0 then zero2 else accAt c n (Nat.lt_of_succ_lt hn))

theorem accAt_reset (c : Dev nD) (t : Fin cfg0.N) (h : t.val % 8 = 0) : accAt m c t.val t.isLt = stepAt m c t zero2 := by
  obtain ⟨n, hn⟩ := t
  cases n with
  | zero => rfl
  | succ n => show stepAt m c _ (if (n + 1) % 8 = 0 then _ else _) = _; rw [if_pos h]

theorem accAt_carry (c : Dev nD) (t : Fin cfg0.N) (h : ¬ t.val % 8 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => show stepAt m c _ (if (n + 1) % 8 = 0 then _ else _) = _; rw [if_neg h]; rfl

/-- The two scratch operands, whole scoped buffers. -/
abbrev scM0 : Memref sig .tc .vmem S1024x1 .f32 := Memref.whole cc0_scratch0
abbrev scM1 : Memref sig .tc .vmem S1024x1 .f32 := Memref.whole cc0_scratch1

/-- The region invariant before position `n`: before the first point both scratch buffers hold anything; afterwards
    they hold the running sums the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare ((accAt m c n hn).1) ∗ owns (c : Thread nD τ) scM1 fullShare ((accAt m c n hn).2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare ((accAt m c n hn).1) ∗ owns (c : Thread nD τ) scM1 fullShare ((accAt m c n hn).2)) := rfl

theorem PhiS_pos (c : Dev nD) (n : ℕ) (h : n ≤ cfg0.N) (hz : n ≠ 0) :
    PhiS m c n h = iprop(owns (c : Thread nD τ) scM0 fullShare ((accAt m c (n - 1) (by omega)).1) ∗ owns (c : Thread nD τ) scM1 fullShare ((accAt m c (n - 1) (by omega)).2)) := by
  cases n with
  | zero => exact absurd rfl hz
  | succ n => rfl

/-- The proof data on core `c`.  The matrix is handed to the region through two windows: each holds half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).1
    | ⟨7, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (accAt m c t.val t.isLt).1 := by dsimp only [dats]
theorem after0_7 (c : Dev nD) (t : Fin cfg0.N) : (dats m 0 c).after 7 t = (accAt m c t.val t.isLt).2 := by dsimp only [dats]

/-- The buffers when the region is left: the two results at what the write-backs leave, every other buffer as it was. -/
def V2 (c : Dev nD) : Valuation τ sig (Elt F) :=
  Pipeline.withArrays spec0 c (V1 m c) (fun w => (dats m 0 c).arrAt w cfg0.N)
/-- The buffers at the end: the ten host operations after the region have run. -/
abbrev V3 (c : Dev nD) : Valuation τ sig (Elt F) := StableHlo.after hostOps1 (V2 m c)

end Cert.Kernel.Hand

end
-- ==== Proof.K.Kept.lean ====
/-
  What the region leaves in the buffers around it: the two result arrays hold what the write-backs left, every
  other buffer is as the region found it, and the two argument arrays still hold the launch memory at the end.
-/
import proofs.«166931_j7370163880494_1_alg».proof.Proof.Gen.Kernel.Launch
import proofs.«166931_j7370163880494_1_alg».proof.Proof.Gen.Kernel.Skeleton
import proofs.«166931_j7370163880494_1_alg».proof.Proof.Gen.Kernel.Points
import Idealize.ShloMosaic.Lib.Pipeline.FrameBody
import Idealize.ShloMosaic.Lib.Pipeline.FrameSuffix
import Idealize.ShloMosaic.Lib.Tactic
import proofs.«166931_j7370163880494_1_alg».proof.Proof.K.Data
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Reading a valuation at one buffer through an equation of buffers. -/
theorem cast_valuation (Vv : Valuation τ sig (Elt F)) {b b' : DevRef τ sig} (e : b' = b) :
    cast (congrArg (fun b'' : DevRef τ sig => b''.ty.Contents (Elt F)) e) (Vv b') = Vv b := by
  subst e; rfl

/-- Window 6 is the only window on the first result array, window 7 the only one on the second. -/
theorem uniq6 : ∀ w' : Fin cfg0.W, Pipeline.arrRef spec0 w' = Pipeline.arrRef spec0 6 → w' = 6 := by decide
theorem uniq7 : ∀ w' : Fin cfg0.W, Pipeline.arrRef spec0 w' = Pipeline.arrRef spec0 7 → w' = 7 := by decide

/-- Every window on the array of an input window is an input window. -/
theorem in_of_same : ∀ w w' : Fin cfg0.W, (cfg0.win w).isOut = false → Pipeline.arrRef spec0 w' = Pipeline.arrRef spec0 w →
    (cfg0.win w').isOut = false := by decide

/-- The array of a window alone on it ends at that window's final contents. -/
theorem V2_uniq (c : Dev nD) (w : Fin cfg0.W) (hu : ∀ w' : Fin cfg0.W, Pipeline.arrRef spec0 w' = Pipeline.arrRef spec0 w → w' = w) :
    V2 m c (Proc.devRef .tc (Pipeline.arrRef spec0 w)) = (dats m 0 c).arrAt w cfg0.N := by
  unfold V2 Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from
    this _ h.choose_spec
  intro w' e
  obtain rfl : w' = w := hu w' (Proc.devRef_injective _ e)
  rfl

theorem V2_out6 (c : Dev nD) : V2 m c (Proc.devRef .tc main_v6_0) = (dats m 0 c).arrAt 6 cfg0.N :=
  V2_uniq m c 6 uniq6

theorem V2_out7 (c : Dev nD) : V2 m c (Proc.devRef .tc main_v6_1) = (dats m 0 c).arrAt 7 cfg0.N :=
  V2_uniq m c 7 uniq7

/-- An input window's array ends as the region found it. -/
theorem V2_in (c : Dev nD) (w : Fin cfg0.W) (hw : (cfg0.win w).isOut = false) :
    V2 m c (Proc.devRef .tc (Pipeline.arrRef spec0 w)) = V1 m c (Proc.devRef .tc (Pipeline.arrRef spec0 w)) := by
  unfold V2 Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N)
        = V1 m c (Proc.devRef .tc (Pipeline.arrRef spec0 w)) from
    this _ h.choose_spec
  intro w' e
  have hw' : (cfg0.win w').isOut = false := in_of_same w w' hw (Proc.devRef_injective _ e)
  rw [Dat.arrAt_in (dats m 0 c) w' hw' cfg0.N, A_eq]
  exact cast_valuation (V1 m c) e

/-- A buffer that is no window's array is as the region found it. -/
theorem V2_other (c : Dev nD) (b : Ref sig .tc) (hb : ∀ w, Pipeline.arrRef spec0 w ≠ b) :
    V2 m c (Proc.devRef .tc b) = V1 m c (Proc.devRef .tc b) :=
  Pipeline.withArrays_of_ne spec0 c (V1 m c) _ b hb

/-- A buffer that is the result of none of the seven operations before the region is not written by them. -/
theorem not_written0 (b : Ref sig .tc)
    (hb : b ≠ main_v0 ∧ b ≠ main_cst ∧ b ≠ main_v1 ∧ b ≠ main_v2 ∧ b ≠ main_v3 ∧ b ≠ main_v4 ∧ b ≠ main_v5) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- A buffer that is the result of none of the ten operations after the region is not written by them. -/
theorem not_written1 (b : Ref sig .tc)
    (hb : b ≠ main_cst_0 ∧ b ≠ main_v7 ∧ b ≠ main_v8 ∧ b ≠ main_v9 ∧ b ≠ main_v10 ∧ b ≠ main_v11 ∧ b ≠ main_cst_1
      ∧ b ≠ main_v12 ∧ b ≠ main_cst_2 ∧ b ≠ main_v13) :
    ∀ op ∈ (hostOps1 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The matrix argument still holds the launch memory at the end: no host operation writes it, and the region only
    reads it. -/
theorem V3_arg0 (c : Dev nD) : V3 m c (Proc.devRef .tc main_arg0) = m ((c : Thread nD τ).loc main_arg0) := by
  show StableHlo.after hostOps1 (V2 m c) (Proc.devRef .tc main_arg0) = _
  rw [StableHlo.after_of_forall_not_mem (b := Proc.devRef .tc main_arg0) hostOps1 (V2 m c) (not_written1 main_arg0 (by decide))]
  refine (V2_in m c 0 (by decide)).trans ?_
  exact StableHlo.after_of_forall_not_mem (b := Proc.devRef .tc main_arg0) hostOps0 (V₀ m c) (not_written0 main_arg0 (by decide))

/-- The label argument still holds the launch memory at the end: no host operation writes it, and it is no window's
    array. -/
theorem V3_arg1 (c : Dev nD) : V3 m c (Proc.devRef .tc main_arg1) = m ((c : Thread nD τ).loc main_arg1) := by
  show StableHlo.after hostOps1 (V2 m c) (Proc.devRef .tc main_arg1) = _
  rw [StableHlo.after_of_forall_not_mem (b := Proc.devRef .tc main_arg1) hostOps1 (V2 m c) (not_written1 main_arg1 (by decide))]
  refine (V2_other m c main_arg1 (by decide)).trans ?_
  exact StableHlo.after_of_forall_not_mem (b := Proc.devRef .tc main_arg1) hostOps0 (V₀ m c) (not_written0 main_arg1 (by decide))

end Cert.Kernel.Hand

end
-- ==== Proof.K.Body.lean ====
/-
  The kernel body on any whole staging memrefs, in its two control cases.
-/
import proofs.«166931_j7370163880494_1_alg».proof.Proof.Gen.Kernel.Launch
import proofs.«166931_j7370163880494_1_alg».proof.Proof.Gen.Kernel.Skeleton
import proofs.«166931_j7370163880494_1_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value
import proofs.«166931_j7370163880494_1_alg».proof.Proof.K.Data
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The condition of the body's one conditional, from the grid coordinates: the column-block coordinate is zero. -/
abbrev cond0 (i : grid0.Coords) : Prop := (Scalar.cmpi .ne (Scalar.extui (Scalar.cmpi .eq (BitVec.ofNat 32 (i 1).val) 0#32)) 0#32) = 1#1

/-- It holds exactly at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- The zero offsets of a two-axis rectangle, as the constant function. -/
theorem off00_zero : (![0, 0] : Fin 2 → Nat) = fun _ => 0 := funext fun a => by fin_cases a <;> rfl

/-- After stores whose last goes through the whole-shape rectangle at zero offsets, the buffer reads as that store's
    vector, whatever it held before and whatever the earlier stores were. -/
theorem read_writes_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through that rectangle after such a store reads the stored vector. -/
theorem readCov_cons_unit_zero {κ : Kind} {sp : Space} {S : Shape} {e : EltTy} (v : View sig κ sp S e)
    {off : Fin S.rank → ℕ} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

set_option maxHeartbeats 4000000 in
/-- The body at a first column block: whatever the scratch and the output buffers held, both running sums restart
    from zero, the tile's sums are added, and the two output buffers receive copies. -/
theorem kernel_run_reset (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc : cond0 i) (x2 x3 : Vec F S1024x768 .f32) (x4 : Vec F S1024x1 .f32) (x5 : Vec F S1x1024 .f32) (x6 : Vec F S1024x1 .i32) (x7 : Vec F S1x1024 .i32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (step x2 x3 x4 x5 x6 x7 zero2).1 ∗ owns (c : Thread nD τ) arg9 fullShare (step x2 x3 x4 x5 x6 x7 zero2).2
            ∗ owns (c : Thread nD τ) arg10 fullShare (step x2 x3 x4 x5 x6 x7 zero2).1 ∗ owns (c : Thread nD τ) arg11 fullShare (step x2 x3 x4 x5 x6 x7 zero2).2) -∗ K ⟨⟩))
      ⊢ wp frame (wpE (defs₀ (F := F)) Variants.none c none) E (cc0__fuzzy_kernel i arg2 harg2 arg3 harg3 arg4 harg4 arg5 harg5 arg6 harg6 arg7 harg7 arg8 harg8 arg9 harg9 arg10 harg10 arg11 harg11) K := by
  simp only [cc0__fuzzy_kernel_eq_skeleton]; unfold cc0__fuzzy_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg8.view f8 off00_zero _ _ []
  isplitl [H9]
  · iexists _; isplitr; swap; · iexact H9
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg9.view f9 off00_zero _ _ []
  isplitl [H10]
  · iexists _; isplitr; swap; · iexact H10
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg10.view f10 off00_zero _ _ _
  · iexists _; isplitr; swap; · iexact H11
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg11.view f11 off00_zero _ _ _

set_option maxHeartbeats 4000000 in
/-- The body at a later column block: the scratch holds the running sums `p` of the blocks before. -/
theorem kernel_run_carry (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc : ¬ cond0 i) (x2 x3 : Vec F S1024x768 .f32) (x4 : Vec F S1024x1 .f32) (x5 : Vec F S1x1024 .f32) (x6 : Vec F S1024x1 .i32) (x7 : Vec F S1x1024 .i32) (p : Vec F S1024x1 .f32 × Vec F S1024x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ owns (c : Thread nD τ) arg10 fullShare p.1 ∗ owns (c : Thread nD τ) arg11 fullShare p.2
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (step x2 x3 x4 x5 x6 x7 p).1 ∗ owns (c : Thread nD τ) arg9 fullShare (step x2 x3 x4 x5 x6 x7 p).2
            ∗ owns (c : Thread nD τ) arg10 fullShare (step x2 x3 x4 x5 x6 x7 p).1 ∗ owns (c : Thread nD τ) arg11 fullShare (step x2 x3 x4 x5 x6 x7 p).2) -∗ K ⟨⟩))
      ⊢ wp frame (wpE (defs₀ (F := F)) Variants.none c none) E (cc0__fuzzy_kernel i arg2 harg2 arg3 harg3 arg4 harg4 arg5 harg5 arg6 harg6 arg7 harg7 arg8 harg8 arg9 harg9 arg10 harg10 arg11 harg11) K := by
  simp only [cc0__fuzzy_kernel_eq_skeleton]; unfold cc0__fuzzy_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10; obtain rfl := harg11.eq_unread hf11
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg8.view f8 off00_zero _ _ []
  isplitl [H9]
  · iexists _; isplitr; swap; · iexact H9
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg9.view f9 off00_zero _ _ []
  isplitl [H10]
  · iexists _; isplitr; swap; · iexact H10
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg10.view _ off00_zero _ _ []
  · iexists _; isplitr; swap; · iexact H11
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg11.view _ off00_zero _ _ []

end Cert.Kernel.Hand

end
-- ==== Proof.K.Oblig.lean ====
/-
  The body obligation of the one pipelined region.

  At every grid point the six input windows' current staging buffers hold their blocks, whether or not they were
  fetched at that point; the two output windows' buffers hold anything, since the body overwrites both wholly.  The
  region invariant hands the body the two scratch buffers: at anything before the first point, afterwards at the running
  sums the point before left.  At a first column block the body restarts both sums from zero; elsewhere it carries
  them on.  Either way it leaves the scratch and the two output buffers at the running sums after this point.
-/
import proofs.«166931_j7370163880494_1_alg».proof.Proof.Gen.Kernel.Launch
import proofs.«166931_j7370163880494_1_alg».proof.Proof.Gen.Kernel.Skeleton
import proofs.«166931_j7370163880494_1_alg».proof.Proof.Gen.Kernel.Points
import Idealize.ShloMosaic.Lib.Pipeline.FrameBody
import Idealize.ShloMosaic.Lib.Pipeline.FrameSuffix
import Idealize.ShloMosaic.Lib.Tactic
import proofs.«166931_j7370163880494_1_alg».proof.Proof.K.Data
import proofs.«166931_j7370163880494_1_alg».proof.Proof.K.Body
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input windows' buffers hold their blocks -/

/-- Input window 0's current staging buffer holds its block at every point, fetched there or not: unfetched, the
    block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-- Input window 1's current staging buffer holds its block at every point, fetched there or not: unfetched, the
    block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_1 (c : Dev nD) (t : Fin cfg0.N) (d) : (dats m 0 c).before 1 t d = iblk m c 1 t :=
  before0_1_of m (dats m 0 c) (A_eq m c 1) (after0_1 m c) t d

/-- Input window 2's current staging buffer holds its block at every point, fetched there or not: unfetched, the
    block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_2 (c : Dev nD) (t : Fin cfg0.N) (d) : (dats m 0 c).before 2 t d = iblk m c 2 t :=
  before0_2_of m (dats m 0 c) (A_eq m c 2) (after0_2 m c) t d

/-- Input window 3's current staging buffer holds its block at every point, fetched there or not: unfetched, the
    block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_3 (c : Dev nD) (t : Fin cfg0.N) (d) : (dats m 0 c).before 3 t d = iblk m c 3 t :=
  before0_3_of m (dats m 0 c) (A_eq m c 3) (after0_3 m c) t d

/-- Input window 4's current staging buffer holds its block at every point, fetched there or not: unfetched, the
    block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_4 (c : Dev nD) (t : Fin cfg0.N) (d) : (dats m 0 c).before 4 t d = iblk m c 4 t :=
  before0_4_of m (dats m 0 c) (A_eq m c 4) (after0_4 m c) t d

/-- Input window 5's current staging buffer holds its block at every point, fetched there or not: unfetched, the
    block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_5 (c : Dev nD) (t : Fin cfg0.N) (d) : (dats m 0 c).before 5 t d = iblk m c 5 t :=
  before0_5_of m (dats m 0 c) (A_eq m c 5) (after0_5 m c) t d

/-! ## The staging memrefs the pipeline passes -/

/-- Window 0's current staging memref at point `t`, and its wholeness. -/
abbrev ms0 (t : Fin cfg0.N) : Memref sig .tc .vmem S1024x768 .f32 := win0_0.stage (cfg0.slots t 0)
abbrev hs0 (t : Fin cfg0.N) : (ms0 t).IsWhole := hstage0_0 ((cfg0.slots t 0).cast nbuf0_0)
/-- No point is idle for window 0. -/
theorem liveAt0_0 : ∀ t : Fin cfg0.N, cfg0.idle 0 (grid0.coords t) = false := fun _ => rfl
/-- So the body leaves its buffer at the proof data's contents after the point. -/
theorem leaves0_0 (c : Dev nD) (t : Fin cfg0.N) :
    (dats m 0 c).leavesExact 0 t = owns (c : Thread nD τ) (ms0 t) fullShare ((dats m 0 c).after 0 t) := by
  unfold Dat.leavesExact; rw [liveAt0_0 t]

/-- Window 1's current staging memref at point `t`, and its wholeness. -/
abbrev ms1 (t : Fin cfg0.N) : Memref sig .tc .vmem S1024x768 .f32 := win0_1.stage (cfg0.slots t 1)
abbrev hs1 (t : Fin cfg0.N) : (ms1 t).IsWhole := hstage0_1 ((cfg0.slots t 1).cast nbuf0_1)
/-- No point is idle for window 1. -/
theorem liveAt0_1 : ∀ t : Fin cfg0.N, cfg0.idle 1 (grid0.coords t) = false := fun _ => rfl
/-- So the body leaves its buffer at the proof data's contents after the point. -/
theorem leaves0_1 (c : Dev nD) (t : Fin cfg0.N) :
    (dats m 0 c).leavesExact 1 t = owns (c : Thread nD τ) (ms1 t) fullShare ((dats m 0 c).after 1 t) := by
  unfold Dat.leavesExact; rw [liveAt0_1 t]

/-- Window 2's current staging memref at point `t`, and its wholeness. -/
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- No point is idle for window 2. -/
theorem liveAt0_2 : ∀ t : Fin cfg0.N, cfg0.idle 2 (grid0.coords t) = false := fun _ => rfl
/-- So the body leaves its buffer at the proof data's contents after the point. -/
theorem leaves0_2 (c : Dev nD) (t : Fin cfg0.N) :
    (dats m 0 c).leavesExact 2 t = owns (c : Thread nD τ) (ms2 t) fullShare ((dats m 0 c).after 2 t) := by
  unfold Dat.leavesExact; rw [liveAt0_2 t]

/-- Window 3's current staging memref at point `t`, and its wholeness. -/
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
/-- No point is idle for window 3. -/
theorem liveAt0_3 : ∀ t : Fin cfg0.N, cfg0.idle 3 (grid0.coords t) = false := fun _ => rfl
/-- So the body leaves its buffer at the proof data's contents after the point. -/
theorem leaves0_3 (c : Dev nD) (t : Fin cfg0.N) :
    (dats m 0 c).leavesExact 3 t = owns (c : Thread nD τ) (ms3 t) fullShare ((dats m 0 c).after 3 t) := by
  unfold Dat.leavesExact; rw [liveAt0_3 t]

/-- Window 4's current staging memref at point `t`, and its wholeness. -/
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
/-- No point is idle for window 4. -/
theorem liveAt0_4 : ∀ t : Fin cfg0.N, cfg0.idle 4 (grid0.coords t) = false := fun _ => rfl
/-- So the body leaves its buffer at the proof data's contents after the point. -/
theorem leaves0_4 (c : Dev nD) (t : Fin cfg0.N) :
    (dats m 0 c).leavesExact 4 t = owns (c : Thread nD τ) (ms4 t) fullShare ((dats m 0 c).after 4 t) := by
  unfold Dat.leavesExact; rw [liveAt0_4 t]

/-- Window 5's current staging memref at point `t`, and its wholeness. -/
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
/-- No point is idle for window 5. -/
theorem liveAt0_5 : ∀ t : Fin cfg0.N, cfg0.idle 5 (grid0.coords t) = false := fun _ => rfl
/-- So the body leaves its buffer at the proof data's contents after the point. -/
theorem leaves0_5 (c : Dev nD) (t : Fin cfg0.N) :
    (dats m 0 c).leavesExact 5 t = owns (c : Thread nD τ) (ms5 t) fullShare ((dats m 0 c).after 5 t) := by
  unfold Dat.leavesExact; rw [liveAt0_5 t]

/-- Window 6's current staging memref at point `t`, and its wholeness. -/
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- No point is idle for window 6. -/
theorem liveAt0_6 : ∀ t : Fin cfg0.N, cfg0.idle 6 (grid0.coords t) = false := fun _ => rfl
/-- So the body leaves its buffer at the proof data's contents after the point. -/
theorem leaves0_6 (c : Dev nD) (t : Fin cfg0.N) :
    (dats m 0 c).leavesExact 6 t = owns (c : Thread nD τ) (ms6 t) fullShare ((dats m 0 c).after 6 t) := by
  unfold Dat.leavesExact; rw [liveAt0_6 t]

/-- Window 7's current staging memref at point `t`, and its wholeness. -/
abbrev ms7 (t : Fin cfg0.N) : Memref sig .tc .vmem S1024x1 .f32 := win0_7.stage (cfg0.slots t 7)
abbrev hs7 (t : Fin cfg0.N) : (ms7 t).IsWhole := hstage0_7 ((cfg0.slots t 7).cast nbuf0_7)
/-- No point is idle for window 7. -/
theorem liveAt0_7 : ∀ t : Fin cfg0.N, cfg0.idle 7 (grid0.coords t) = false := fun _ => rfl
/-- So the body leaves its buffer at the proof data's contents after the point. -/
theorem leaves0_7 (c : Dev nD) (t : Fin cfg0.N) :
    (dats m 0 c).leavesExact 7 t = owns (c : Thread nD τ) (ms7 t) fullShare ((dats m 0 c).after 7 t) := by
  unfold Dat.leavesExact; rw [liveAt0_7 t]

/-! ## The invariant before the first point -/

/-- Before the first point the two scratch buffers are owned whole at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point.  The inputs' buffers hold their blocks; the outputs' hold anything.  At a first column block the
    running sums restart from zero, whatever the scratch held; elsewhere the scratch holds the sums the point before left
    and the body carries them on.  The scratch and both outputs are left at the running sums after this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [after0_0, after0_1, after0_2, after0_3, after0_4, after0_5, after0_6, after0_7]
  by_cases h0 : t.val % 8 = 0
  · rw [accAt_reset m c t h0]; unfold stepAt
    by_cases hz : t.val = 0
    · rw [PhiS_castSucc m c t, PhiS_zero m c _ _ hz, scopedRest_owns]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel_run_reset c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((hcond0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel_run_reset c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((hcond0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      isplitl [HS1]; · iexists _; iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun h => h0 (by rw [h])
    rw [accAt_carry m c t h0]; unfold stepAt
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel_run_carry c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((hcond0 t).mp h)) (iblk m c 0 t) (iblk m c 1 t) (iblk m c 2 t) (iblk m c 3 t) (iblk m c 4 t) (iblk m c 5 t) (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Arrays.lean ====
/-
  The region's arrays: the distinct buffers behind the eight windows, each whole at the full share, are the windows'
  arrays at the shares the proof data name.  Two windows read the one matrix: its buffer at the full share is its
  left half share and its right half share at the same contents, one half for each of the two windows; each of the
  other six arrays goes whole to its one window.
-/
import proofs.«166931_j7370163880494_1_alg».proof.Proof.Gen.Kernel.Launch
import proofs.«166931_j7370163880494_1_alg».proof.Proof.Gen.Kernel.Skeleton
import proofs.«166931_j7370163880494_1_alg».proof.Proof.Gen.Kernel.Points
import Idealize.ShloMosaic.Lib.Pipeline.FrameBody
import Idealize.ShloMosaic.Lib.Pipeline.FrameSuffix
import Idealize.ShloMosaic.Lib.Tactic
import proofs.«166931_j7370163880494_1_alg».proof.Proof.K.Data
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct arrays behind the eight windows. -/
theorem arrRefs_eq : Finset.univ.image (Pipeline.arrRef spec0) = [main_arg0, main_v2, main_v3, main_v4, main_v5, main_v6_0, main_v6_1].toFinset := by decide

/-- They are pairwise distinct. -/
theorem arrRefs_nodup : [main_arg0, main_v2, main_v3, main_v4, main_v5, main_v6_0, main_v6_1].Nodup := by decide

/-- The shares the arrays are held at: the two windows on the matrix hold a half each, every other window its array whole. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_6 (c : Dev nD) : (dats m 0 c).share 6 = fullShare := rfl

/-- The distinct buffers, one by one. -/
theorem arrBufs_chain (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v2) ↦{fullShare} Vv main_v2)
          ∗ (((c : Thread nD τ).loc main_v3) ↦{fullShare} Vv main_v3) ∗ (((c : Thread nD τ).loc main_v4) ↦{fullShare} Vv main_v4)
          ∗ (((c : Thread nD τ).loc main_v5) ↦{fullShare} Vv main_v5) ∗ (((c : Thread nD τ).loc main_v6_0) ↦{fullShare} Vv main_v6_0)
          ∗ (((c : Thread nD τ).loc main_v6_1) ↦{fullShare} Vv main_v6_1)) := by
  unfold Pipeline.arrBufs
  exact bigSep_eq_bigSepL_of_eq [main_arg0, main_v2, main_v3, main_v4, main_v5, main_v6_0, main_v6_1] arrRefs_eq arrRefs_nodup _

/-- The windows' arrays, one by one, at the shares the proof data name. -/
theorem arrays_chain (c : Dev nD) (G : (w : Fin cfg0.W) → Buf (Elt F) ((cfg0.win w).arr.view.loc (c : Thread nD τ))) :
    (dats m 0 c).arrays G
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4) ∗ (((c : Thread nD τ).loc main_v5) ↦{fullShare} G 5)
          ∗ (((c : Thread nD τ).loc main_v6_0) ↦{fullShare} G 6) ∗ (((c : Thread nD τ).loc main_v6_1) ↦{fullShare} G 7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- A buffer's full share is its two half shares at the same contents. -/
theorem halves (ℓ : Loc nD τ sig) (f : Buf (Elt F) ℓ) :
    ((ℓ ↦{fullShare} f : sProp 𝕄)) ⊣⊢ iprop((ℓ ↦{fullShare.left} f) ∗ (ℓ ↦{fullShare.right} f)) :=
  pointsTo_share (PosShare.mem_left_op_right fullShare)

/-- The distinct buffers behind the windows' arrays, whole at the full share, are the windows' arrays: the matrix's
    buffer is dealt in halves to the two windows on it. -/
theorem arrays_split (c : Dev nD) (Vv : (b : Ref sig .tc) → Buf (Elt F) ((c : Thread nD τ).loc b))
    (G : (w : Fin cfg0.W) → Buf (Elt F) ((cfg0.win w).arr.view.loc (c : Thread nD τ))) (hG : ∀ w, G w = Vv (Pipeline.arrRef spec0 w)) :
    (Pipeline.arrBufs spec0 c Vv : sProp 𝕄) ⊢ (dats m 0 c).arrays G := by
  have h0 : G 0 = Vv main_arg0 := hG 0
  have h1 : G 1 = Vv main_arg0 := hG 1
  have h2 : G 2 = Vv main_v2 := hG 2
  have h3 : G 3 = Vv main_v3 := hG 3
  have h4 : G 4 = Vv main_v4 := hG 4
  have h5 : G 5 = Vv main_v5 := hG 5
  have h6 : G 6 = Vv main_v6_0 := hG 6
  have h7 : G 7 = Vv main_v6_1 := hG 7
  rw [arrBufs_chain, arrays_chain, h0, h1, h2, h3, h4, h5, h6, h7]
  iintro ⟨H0, H2, H3, H4, H5, H6, H7⟩
  ihave H01 := (halves _ _).1 $$ H0
  icases H01 with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

/-- Conversely the windows' arrays give the distinct buffers back whole: the two windows on the matrix hold the same
    contents, so their halves join. -/
theorem arrays_join (c : Dev nD) (Vv : (b : Ref sig .tc) → Buf (Elt F) ((c : Thread nD τ).loc b))
    (G : (w : Fin cfg0.W) → Buf (Elt F) ((cfg0.win w).arr.view.loc (c : Thread nD τ))) (hG : ∀ w, G w = Vv (Pipeline.arrRef spec0 w)) :
    (dats m 0 c).arrays G ⊢ (Pipeline.arrBufs spec0 c Vv : sProp 𝕄) := by
  have h0 : G 0 = Vv main_arg0 := hG 0
  have h1 : G 1 = Vv main_arg0 := hG 1
  have h2 : G 2 = Vv main_v2 := hG 2
  have h3 : G 3 = Vv main_v3 := hG 3
  have h4 : G 4 = Vv main_v4 := hG 4
  have h5 : G 5 = Vv main_v5 := hG 5
  have h6 : G 6 = Vv main_v6_0 := hG 6
  have h7 : G 7 = Vv main_v6_1 := hG 7
  rw [arrBufs_chain, arrays_chain, h0, h1, h2, h3, h4, h5, h6, h7]
  iintro ⟨Hl, Hr, H2, H3, H4, H5, H6, H7⟩
  isplitl [Hl Hr]
  · iapply (halves _ _).2
    isplitl [Hl]; · iexact Hl
    iexact Hr
  isplitl [H2]; · iexact H2
  isplitl [H3]; · iexact H3
  isplitl [H4]; · iexact H4
  isplitl [H5]; · iexact H5
  isplitl [H6]; · iexact H6
  iexact H7

end Cert.Kernel.Hand

end
-- ==== Proof.LibSharedRegion.lean ====
/-
  A kernel region whose INPUT windows may share an array, as a segment of a program of several items — stated once,
  for any pipeline `p` of any family of exact proof data.

  Between two items of @main a core holds every unscoped buffer whole at a valuation, beside the core owing nothing.
  The region is entered from the valuation `W c` and left at `W' c`.  Where several windows sit on one array the
  buffer behind it cannot be given to each of them whole: how the buffers behind the arrays, each whole at `W c`,
  make the proof data's arrays at entry (`hsplit`: a shared array's share dealt among its windows) and how the
  arrays at exit make those buffers whole again at `W' c` (`hjoin`) are the caller's to say; every other unscoped
  buffer passes by the region untouched (`hrest`).  The invariant starts from and returns to the scoped buffers the
  pipeline does not stage (`hΦin`, `hΦout`); between the first and the last point it may name their contents.  The
  kernel has no semaphore of its own, no prefetched table, and owes nothing.
-/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace SharedIn

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

/-- What rides beside the buffers through every item: the core owing nothing. -/
def rides (c : Dev nD) : sProp 𝕄₁ :=
  iprop(∃ W, owes (c.tc : Thread nD τ) (0 : CellTallies nD τ sig Unit) W)

/-- The thread state between two items: every unscoped buffer at `W`, and what rides along. -/
def between (c : Dev nD) (W : Valuation τ sig Val) : sProp 𝕄₁ :=
  iprop(StableHlo.held (c.tc : Thread nD τ) (ucRefs τ sig) W ∗ rides (U' := U') c)

set_option backward.isDefEq.respectTransparency.types false in
/-- THE REGION RECORD of a pipeline whose windows may share arrays, with exact proof data. -/
def region (hw : WinFacts₀ (pcs p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligation (pdats p c) defs₀ 𝒱₀ () Set.univ)
    (howed : ∀ c t, (pdats p c).owed t = 0)
    (hrec : ∀ c t, (pdats p c).recorded t = Set.univ)
    (hΦin : ∀ c, (scopedRest (pin pcs a p).spec c : sProp 𝕄₁) ⊢ (pdats p c).Φ 0)
    (hΦout : ∀ c, (pdats p c).Φ (Fin.last (pin pcs a p).N) ⊢ (scopedRest (pin pcs a p).spec c : sProp 𝕄₁))
    (hpre : ∀ c, (BI.emp : sProp 𝕄₁) ⊢ prefHeld (pcs p).pre c (fun _ => fullShare) (a p).1)
    (W W' : Dev nD → Valuation τ sig Val)
    (hsplit : ∀ c, (arrBufs (pin pcs a p).spec c (fun b => W c b) : sProp 𝕄₁) ⊢ (pdats p c).arrays ((pdats p c).arrAt · 0))
    (hjoin : ∀ c, (pdats p c).arrays ((pdats p c).arrAt · (pin pcs a p).N) ⊢ (arrBufs (pin pcs a p).spec c (fun b => W' c b) : sProp 𝕄₁))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := hw
  block_pos := hpos
  stage_whole := hstage
  K := PEmpty
  osem k := k.elim
  ho := OwnSemFacts.none _
  hbody c := (hbody c).loose
  hwaits := hwaits_of_owed_zero pcs a pdats () L lv p howed
  pre c := between (U' := U') c (W c)
  post c := between (U' := U') c (W' c)
  X c := BI.emp
  Y c := BI.emp
  Z c := unscopedRest (Ix := Unit) (Name := ℕ) (U := U') (Lvl := ℕ) (pin pcs a p).spec c (fun b => W c b)
  hentry c := by
    have hsp := unscopedBufs_split₀ (pin pcs a) p (Ix := Unit) (Name := ℕ) (U := U') (Lvl := ℕ) hw.arr_unscoped c (fun b => W c b)
    rw [unscopedBufs_held] at hsp
    rw [ownSems0_none]
    unfold between rides
    rw [hsp]
    iintro ⟨⟨⟨Hab, Hrest⟩, HO⟩, -, -⟩
    ihave Ha := (hsplit c) $$ Hab
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitr; · iempintro
    iexact Hrest
  hin c := by
    refine Entails.trans ?_ (hΦin c)
    iintro ⟨-, -, Hr⟩
    iexact Hr
  hout c := by
    refine (hΦout c).trans ?_
    rw [ownSems0_none]
    iintro Hr
    isplitr; · iempintro
    isplitr; · iempintro
    iexact Hr
  hexit c := by
    have hsp := unscopedBufs_split₀ (pin pcs a) p (Ix := Unit) (Name := ℕ) (U := U') (Lvl := ℕ) hw.arr_unscoped c (fun b => W' c b)
    rw [unscopedBufs_held] at hsp
    have hr : (unscopedRest (Ix := Unit) (Name := ℕ) (U := U') (Lvl := ℕ) (pin pcs a p).spec c (fun b => W c b) : sProp 𝕄₁)
        = unscopedRest (pin pcs a p).spec c (fun b => W' c b) := by
      unfold unscopedRest
      exact bigSep_congr fun b hb => by dsimp only; rw [hrest c b (Finset.mem_sdiff.mp hb).2]
    unfold between rides
    rw [hsp, ← hr]
    iintro ⟨Ha, HO, -, Hrest⟩
    ihave Hab := (hjoin c) $$ Ha
    imodintro
    isplitl [Hab Hrest]
    · isplitl [Hab] <;> iassumption
    unfold Dat.owesAt owesWithin
    rw [howed c _]
    icases HO with ⟨%W₁, -, HO⟩; iexists W₁; iexact HO

end SharedIn

end Pipeline

end Idealize.ShloMosaic

end
-- ==== Proof.K.Run.lean ====
/-
  The run of @main: seven host operations, the pipelined region, ten host operations — as three segments.
  Every weakly fair execution from a memory with zero counters terminates, and every unscoped buffer of a core ends
  at the valuation the three items compose: the launch contents through the first operations, the two results
  replaced by what the region's write-backs leave, then through the last operations.
-/
import proofs.«166931_j7370163880494_1_alg».proof.Proof.Gen.Kernel.Launch
import proofs.«166931_j7370163880494_1_alg».proof.Proof.Gen.Kernel.Skeleton
import proofs.«166931_j7370163880494_1_alg».proof.Proof.Gen.Kernel.Points
import Idealize.ShloMosaic.Lib.Pipeline.FrameBody
import Idealize.ShloMosaic.Lib.Pipeline.FrameSuffix
import Idealize.ShloMosaic.Lib.Tactic
import proofs.«166931_j7370163880494_1_alg».proof.Proof.K.Oblig
import proofs.«166931_j7370163880494_1_alg».proof.Proof.K.Arrays
import proofs.«166931_j7370163880494_1_alg».proof.Proof.K.Kept
import proofs.«166931_j7370163880494_1_alg».proof.Proof.LibSharedRegion
import Idealize.ShloMosaic.Lib.Pipeline.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The pipeline library's algebra is the whole of the certificate's. -/
abbrev EP : Emb (UR sig nD τ) (MT nD τ sig Unit (Elt F) ℕ (UR sig nD τ) ℕ) := emb₁
abbrev 𝒱₀ : Variants := Variants.none
/-- No core owes another anything: no level is assigned. -/
abbrev Lv : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every item: the core owing nothing. -/
abbrev Rd (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host operations before the region, over the unscoped buffers from the launch contents. -/
def seg0 : Pipeline.HostSeg (Ix := Unit) (Name := ℕ) (U := UR sig nD τ) (Lvl := ℕ) (pcfgs (F := F)) defs₀ 𝒱₀ Lv lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) Rd
/-- The host operations after it, from the valuation the region leaves. -/
def seg1 : Pipeline.HostSeg (Ix := Unit) (Name := ℕ) (U := UR sig nD τ) (Lvl := ℕ) (pcfgs (F := F)) defs₀ 𝒱₀ Lv lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) Rd

/-- Every window's array ends, in the valuation the region leaves, at what the write-backs leave in it: an input's
    array as it was, a result's at its flushed blocks. -/
theorem isOut_cases : ∀ w : Fin cfg0.W, (cfg0.win w).isOut = false ∨ w = 6 ∨ w = 7 := by decide +kernel

set_option maxHeartbeats 2000000 in
theorem arrAt_V2 (c : Dev nD) (w : Fin cfg0.W) :
    (dats m 0 c).arrAt w cfg0.N = V2 m c (Proc.devRef .tc (Pipeline.arrRef spec0 w)) := by
  rcases isOut_cases w with hw | rfl | rfl
  · exact ((dats m 0 c).arrAt_in w hw _).trans ((A_eq m c w).trans (V2_in m c w hw).symm)
  · exact (V2_out6 m c).symm
  · exact (V2_out7 m c).symm

/-- The invariant before the first point is the scoped buffers the pipeline does not stage, at anything. -/
theorem hΦin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the running sums' names are forgotten. -/
theorem hΦout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c cfg0.N (Nat.le_refl _) from rfl,
    PhiS_pos m c _ _ (by rw [show cfg0.N = 64 from N_0]; decide), scopedRest_owns]
  iintro ⟨H0, H1⟩
  isplitl [H0]
  · iexists _; iexact H0
  iexists _; iexact H1

theorem hsplit (c : Dev nD) :
    (Pipeline.arrBufs spec0 c (fun b => V1 m c (Proc.devRef .tc b)) : sProp 𝕄) ⊢ (dats m 0 c).arrays ((dats m 0 c).arrAt · 0) :=
  arrays_split m c (fun b => V1 m c (Proc.devRef .tc b)) _ (fun w => A_eq m c w)

theorem hjoin (c : Dev nD) :
    (dats m 0 c).arrays ((dats m 0 c).arrAt · cfg0.N) ⊢ (Pipeline.arrBufs spec0 c (fun b => V2 m c (Proc.devRef .tc b)) : sProp 𝕄) :=
  arrays_join m c (fun b => V2 m c (Proc.devRef .tc b)) _ (fun w => arrAt_V2 m c w)

theorem hrest (c : Dev nD) (b : Ref sig .tc) (hb : b ∉ Finset.univ.image (Pipeline.arrRef spec0)) :
    V2 m c (Proc.devRef .tc b) = V1 m c (Proc.devRef .tc b) :=
  V2_other m c b (fun w h => hb (Finset.mem_image.mpr ⟨w, Finset.mem_univ _, h⟩))

theorem hpre (c : Dev nD) : (BI.emp : sProp 𝕄) ⊢ Pipeline.prefHeld (pcfgs (F := F) 0).pre c (fun _ => fullShare) (adm (F := F) 0).1 := by
  unfold Pipeline.prefHeld; rw [show (Finset.univ : Finset (Fin 0)) = ∅ from rfl, BI.bigSep_empty]

set_option backward.isDefEq.respectTransparency.types false in
set_option maxHeartbeats 4000000 in
/-- The region, entered from the valuation the first operations leave and left at the one with the two results
    replaced: the matrix's buffer is split between the two windows that read it and made whole again at the exit. -/
def reg0 : Pipeline.RegionSeg (pcfgs (F := F)) adm (dats m) () defs₀ 𝒱₀ Lv lv 0 :=
  Pipeline.SharedIn.region (U' := UR sig nD τ) (pcfgs (F := F)) adm (dats m) defs₀ 𝒱₀ Lv lv 0 winFacts₀0 block_pos0 stage_whole0
    (body_obligation m) (fun _ _ => rfl) (fun _ _ => rfl) (hΦin m) (hΦout m) hpre (V1 m) (V2 m) (hsplit m) (hjoin m) (hrest m)

/-- @main as the list of the three. -/
abbrev segs : List (Pipeline.Seg (pcfgs (F := F)) adm (dats m) () defs₀ 𝒱₀ Lv lv) :=
  [.host (seg0 m), .region (reg0 m), .host (seg1 m)]

/-- The launch element: the pipeline library's at the staging cells. -/
def u₀ : UR sig nD τ := initOf (Pipeline.cells cfgs cellOf_inj) (Pipeline.launchToks cfgs cellOf_inj)

set_option backward.isDefEq.respectTransparency.types false in
set_option maxHeartbeats 4000000 in
/-- At the compiled mesh, for any float values, from any memory with zero counters: every weakly fair execution of
    @main on the TensorCores terminates, and every unscoped buffer ends at the composed valuation. -/
theorem run_main : θ_run defs (onTc (τ := τ) (main (F := F))) ⟨m, fun _ => 0, ρ⟩
    (fun r => ∀ c : Dev nD, ∀ b : Ref sig .tc, b.isScoped = false →
      r.2.mem ((c.tc : Thread nD τ).loc b) = V3 m c (Proc.devRef .tc b)) := by
  refine Pipeline.θ_run_regions_kit (pcfgs (F := F)) adm (dats m) () cellOf_inj EP defs₀ 𝒱₀ Lv lv m ρ main (segs m)
    (fun c Q => by rw [main_segs adm (dats m) () 𝒱₀ Lv lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp)) (u₀ := u₀)
    (hu₀ := ?_)
    (T₀ := fun c => iprop(StableHlo.held (c : Thread nD τ) (Pipeline.ucRefs τ sig) (V₀ m c) ∗ Rd c))
    (Tₙ := fun c => StableHlo.held (c : Thread nD τ) (Pipeline.ucRefs τ sig) (V3 m c))
    (hch := ⟨fun _ => .rfl, fun _ => .rfl, fun _ => .rfl, fun _ => .rfl⟩)
    (hinit := ?_)
    (QY := fun c s => ∀ b : Ref sig .tc, b.isScoped = false → s.mem ((c.tc : Thread nD τ).loc b) = V3 m c (Proc.devRef .tc b))
    (hfin := fun c s' => ?_) (hQ := fun _ h => h)
  · unfold u₀
    rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach Lv lv fun c => ?_
    rw [show unscopedBufs c (fun b => m ((c : Thread nD τ).loc b)) = StableHlo.held (c : Thread nD τ) (Pipeline.ucRefs τ sig) (V₀ m c) from Pipeline.unscopedBufs_held c (V₀ m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V3 m c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, by simpa using hb⟩)
    · iexact HSI

/-- info: 'Cert.Kernel.Hand.run_main' depends on axioms: [propext, Classical.choice, Quot.sound] -/
#guard_msgs in #print axioms run_main

end Cert.Kernel.Hand

end
-- ==== Proof.KI.Data.lean ====
/-
  The proof data of the one pipelined region, for any float instance.

  The grid is 8 × 8, point t = 8·i + j.  At point t the body receives the row block i and the column block j of
  the matrix, the matching blocks of the row norms, column norms, row labels and column labels, and two running
  column vectors kept in scratch: the masked row sums and the plain row sums of the 1024 × 1024 tile of
  exponentials.  At j = 0 both are reset to zero before the tile's sums are added; after the addition both are copied
  to the two output blocks.  `accAt` is that recursion; the proof data name each input buffer at its block, each
  output buffer at the running sums, and the scratch at the running sums after the first point.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The memory at launch, as a valuation of core `c`'s buffers. -/
abbrev V₀ (c : Dev nD) : Valuation τ sig (Elt F) := fun b => m (c, b)
/-- The buffers when the region is entered: the seven host operations before it have run. -/
abbrev V1 (c : Dev nD) : Valuation τ sig (Elt F) := StableHlo.after hostOps0 (V₀ m c)
/-- The same, read at a TensorCore reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One tile's update of the two running sums: the masked row sums added to the first, the row sums to the second. -/
def step (x2 x3 : Vec F S1024x768 .f32) (x4 : Vec F S1024x1 .f32) (x5 : Vec F S1x1024 .f32) (x6 : Vec F S1024x1 .i32) (x7 : Vec F S1x1024 .i32)
    (p : Vec F S1024x1 .f32 × Vec F S1024x1 .f32) : Vec F S1024x1 .f32 × Vec F S1024x1 .f32 :=
  (k0_pay1 (k0_pay6 x2 x3 x4 x5 x6 x7 p.1), k0_pay2 (k0_pay5 x2 x3 x4 x5) p.2)

/-- Both running sums at zero. -/
def zero2 : Vec F S1024x1 .f32 × Vec F S1024x1 .f32 := (k0_pay3 (F := F), k0_pay4 (F := F))

/-- The update at point `t`, on that point's blocks. -/
def stepAt (c : Dev nD) (t : Fin cfg0.N) (p : Vec F S1024x1 .f32 × Vec F S1024x1 .f32) : Vec F S1024x1 .f32 × Vec F S1024x1 .f32 :=
  step (iblk m c 0 t) (iblk m c 1 t) (iblk m c 2 t) (iblk m c 3 t) (iblk m c 4 t) (iblk m c 5 t) p

/-- The running sums after point `n`: restarted from zero at the first column block of each row block. -/
def accAt (c : Dev nD) : (n : ℕ) → n < cfg0.N → Vec F S1024x1 .f32 × Vec F S1024x1 .f32
  | 0, hn => stepAt m c ⟨0, hn⟩ zero2
  | n + 1, hn => stepAt m c ⟨n + 1, hn⟩ (if (n + 1) % 8 = 0 then zero2 else accAt c n (Nat.lt_of_succ_lt hn))

theorem accAt_reset (c : Dev nD) (t : Fin cfg0.N) (h : t.val % 8 = 0) : accAt m c t.val t.isLt = stepAt m c t zero2 := by
  obtain ⟨n, hn⟩ := t
  cases n with
  | zero => rfl
  | succ n => show stepAt m c _ (if (n + 1) % 8 = 0 then _ else _) = _; rw [if_pos h]

theorem accAt_carry (c : Dev nD) (t : Fin cfg0.N) (h : ¬ t.val % 8 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => show stepAt m c _ (if (n + 1) % 8 = 0 then _ else _) = _; rw [if_neg h]; rfl

/-- The two scratch operands, whole scoped buffers. -/
abbrev scM0 : Memref sig .tc .vmem S1024x1 .f32 := Memref.whole cc0_scratch0
abbrev scM1 : Memref sig .tc .vmem S1024x1 .f32 := Memref.whole cc0_scratch1

/-- The region invariant before position `n`: before the first point both scratch buffers hold anything; afterwards
    they hold the running sums the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare ((accAt m c n hn).1) ∗ owns (c : Thread nD τ) scM1 fullShare ((accAt m c n hn).2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare ((accAt m c n hn).1) ∗ owns (c : Thread nD τ) scM1 fullShare ((accAt m c n hn).2)) := rfl

theorem PhiS_pos (c : Dev nD) (n : ℕ) (h : n ≤ cfg0.N) (hz : n ≠ 0) :
    PhiS m c n h = iprop(owns (c : Thread nD τ) scM0 fullShare ((accAt m c (n - 1) (by omega)).1) ∗ owns (c : Thread nD τ) scM1 fullShare ((accAt m c (n - 1) (by omega)).2)) := by
  cases n with
  | zero => exact absurd rfl hz
  | succ n => rfl

/-- The proof data on core `c`.  The matrix is handed to the region through two windows: each holds half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).1
    | ⟨7, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (accAt m c t.val t.isLt).1 := by dsimp only [dats]
theorem after0_7 (c : Dev nD) (t : Fin cfg0.N) : (dats m 0 c).after 7 t = (accAt m c t.val t.isLt).2 := by dsimp only [dats]

/-- The buffers when the region is left: the two results at what the write-backs leave, every other buffer as it was. -/
def V2 (c : Dev nD) : Valuation τ sig (Elt F) :=
  Pipeline.withArrays spec0 c (V1 m c) (fun w => (dats m 0 c).arrAt w cfg0.N)
/-- The buffers at the end: the ten host operations after the region have run. -/
abbrev V3 (c : Dev nD) : Valuation τ sig (Elt F) := StableHlo.after hostOps1 (V2 m c)

end Cert.KernelIdeal.Hand

end
-- ==== Proof.KI.Kept.lean ====
/-
  What the region leaves in the buffers around it: the two result arrays hold what the write-backs left, every
  other buffer is as the region found it, and the two argument arrays still hold the launch memory at the end.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic
import proofs.«166931_j7370163880494_1_alg».proof.Proof.KI.Data
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Reading a valuation at one buffer through an equation of buffers. -/
theorem cast_valuation (Vv : Valuation τ sig (Elt F)) {b b' : DevRef τ sig} (e : b' = b) :
    cast (congrArg (fun b'' : DevRef τ sig => b''.ty.Contents (Elt F)) e) (Vv b') = Vv b := by
  subst e; rfl

/-- Window 6 is the only window on the first result array, window 7 the only one on the second. -/
theorem uniq6 : ∀ w' : Fin cfg0.W, Pipeline.arrRef spec0 w' = Pipeline.arrRef spec0 6 → w' = 6 := by decide
theorem uniq7 : ∀ w' : Fin cfg0.W, Pipeline.arrRef spec0 w' = Pipeline.arrRef spec0 7 → w' = 7 := by decide

/-- Every window on the array of an input window is an input window. -/
theorem in_of_same : ∀ w w' : Fin cfg0.W, (cfg0.win w).isOut = false → Pipeline.arrRef spec0 w' = Pipeline.arrRef spec0 w →
    (cfg0.win w').isOut = false := by decide

/-- The array of a window alone on it ends at that window's final contents. -/
theorem V2_uniq (c : Dev nD) (w : Fin cfg0.W) (hu : ∀ w' : Fin cfg0.W, Pipeline.arrRef spec0 w' = Pipeline.arrRef spec0 w → w' = w) :
    V2 m c (Proc.devRef .tc (Pipeline.arrRef spec0 w)) = (dats m 0 c).arrAt w cfg0.N := by
  unfold V2 Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from
    this _ h.choose_spec
  intro w' e
  obtain rfl : w' = w := hu w' (Proc.devRef_injective _ e)
  rfl

theorem V2_out6 (c : Dev nD) : V2 m c (Proc.devRef .tc main_v6_0) = (dats m 0 c).arrAt 6 cfg0.N :=
  V2_uniq m c 6 uniq6

theorem V2_out7 (c : Dev nD) : V2 m c (Proc.devRef .tc main_v6_1) = (dats m 0 c).arrAt 7 cfg0.N :=
  V2_uniq m c 7 uniq7

/-- An input window's array ends as the region found it. -/
theorem V2_in (c : Dev nD) (w : Fin cfg0.W) (hw : (cfg0.win w).isOut = false) :
    V2 m c (Proc.devRef .tc (Pipeline.arrRef spec0 w)) = V1 m c (Proc.devRef .tc (Pipeline.arrRef spec0 w)) := by
  unfold V2 Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N)
        = V1 m c (Proc.devRef .tc (Pipeline.arrRef spec0 w)) from
    this _ h.choose_spec
  intro w' e
  have hw' : (cfg0.win w').isOut = false := in_of_same w w' hw (Proc.devRef_injective _ e)
  rw [Dat.arrAt_in (dats m 0 c) w' hw' cfg0.N, A_eq]
  exact cast_valuation (V1 m c) e

/-- A buffer that is no window's array is as the region found it. -/
theorem V2_other (c : Dev nD) (b : Ref sig .tc) (hb : ∀ w, Pipeline.arrRef spec0 w ≠ b) :
    V2 m c (Proc.devRef .tc b) = V1 m c (Proc.devRef .tc b) :=
  Pipeline.withArrays_of_ne spec0 c (V1 m c) _ b hb

/-- A buffer that is the result of none of the seven operations before the region is not written by them. -/
theorem not_written0 (b : Ref sig .tc)
    (hb : b ≠ main_v0 ∧ b ≠ main_cst ∧ b ≠ main_v1 ∧ b ≠ main_v2 ∧ b ≠ main_v3 ∧ b ≠ main_v4 ∧ b ≠ main_v5) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- A buffer that is the result of none of the ten operations after the region is not written by them. -/
theorem not_written1 (b : Ref sig .tc)
    (hb : b ≠ main_cst_0 ∧ b ≠ main_v7 ∧ b ≠ main_v8 ∧ b ≠ main_v9 ∧ b ≠ main_v10 ∧ b ≠ main_v11 ∧ b ≠ main_cst_1
      ∧ b ≠ main_v12 ∧ b ≠ main_cst_2 ∧ b ≠ main_v13) :
    ∀ op ∈ (hostOps1 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The matrix argument still holds the launch memory at the end: no host operation writes it, and the region only
    reads it. -/
theorem V3_arg0 (c : Dev nD) : V3 m c (Proc.devRef .tc main_arg0) = m ((c : Thread nD τ).loc main_arg0) := by
  show StableHlo.after hostOps1 (V2 m c) (Proc.devRef .tc main_arg0) = _
  rw [StableHlo.after_of_forall_not_mem (b := Proc.devRef .tc main_arg0) hostOps1 (V2 m c) (not_written1 main_arg0 (by decide))]
  refine (V2_in m c 0 (by decide)).trans ?_
  exact StableHlo.after_of_forall_not_mem (b := Proc.devRef .tc main_arg0) hostOps0 (V₀ m c) (not_written0 main_arg0 (by decide))

/-- The label argument still holds the launch memory at the end: no host operation writes it, and it is no window's
    array. -/
theorem V3_arg1 (c : Dev nD) : V3 m c (Proc.devRef .tc main_arg1) = m ((c : Thread nD τ).loc main_arg1) := by
  show StableHlo.after hostOps1 (V2 m c) (Proc.devRef .tc main_arg1) = _
  rw [StableHlo.after_of_forall_not_mem (b := Proc.devRef .tc main_arg1) hostOps1 (V2 m c) (not_written1 main_arg1 (by decide))]
  refine (V2_other m c main_arg1 (by decide)).trans ?_
  exact StableHlo.after_of_forall_not_mem (b := Proc.devRef .tc main_arg1) hostOps0 (V₀ m c) (not_written0 main_arg1 (by decide))

end Cert.KernelIdeal.Hand

end
-- ==== Proof.KI.Body.lean ====
/-
  The kernel body on any whole staging memrefs, in its two control cases.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import proofs.«166931_j7370163880494_1_alg».proof.Proof.KI.Data
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The condition of the body's one conditional, from the grid coordinates: the column-block coordinate is zero. -/
abbrev cond0 (i : grid0.Coords) : Prop := (Scalar.cmpi .ne (Scalar.extui (Scalar.cmpi .eq (BitVec.ofNat 32 (i 1).val) 0#32)) 0#32) = 1#1

/-- It holds exactly at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- The zero offsets of a two-axis rectangle, as the constant function. -/
theorem off00_zero : (![0, 0] : Fin 2 → Nat) = fun _ => 0 := funext fun a => by fin_cases a <;> rfl

/-- After stores whose last goes through the whole-shape rectangle at zero offsets, the buffer reads as that store's
    vector, whatever it held before and whatever the earlier stores were. -/
theorem read_writes_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through that rectangle after such a store reads the stored vector. -/
theorem readCov_cons_unit_zero {κ : Kind} {sp : Space} {S : Shape} {e : EltTy} (v : View sig κ sp S e)
    {off : Fin S.rank → ℕ} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

set_option maxHeartbeats 4000000 in
/-- The body at a first column block: whatever the scratch and the output buffers held, both running sums restart
    from zero, the tile's sums are added, and the two output buffers receive copies. -/
theorem kernel_run_reset (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc : cond0 i) (x2 x3 : Vec F S1024x768 .f32) (x4 : Vec F S1024x1 .f32) (x5 : Vec F S1x1024 .f32) (x6 : Vec F S1024x1 .i32) (x7 : Vec F S1x1024 .i32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (step x2 x3 x4 x5 x6 x7 zero2).1 ∗ owns (c : Thread nD τ) arg9 fullShare (step x2 x3 x4 x5 x6 x7 zero2).2
            ∗ owns (c : Thread nD τ) arg10 fullShare (step x2 x3 x4 x5 x6 x7 zero2).1 ∗ owns (c : Thread nD τ) arg11 fullShare (step x2 x3 x4 x5 x6 x7 zero2).2) -∗ K ⟨⟩))
      ⊢ wp frame (wpE (defs₀ (F := F)) Variants.none c none) E (cc0__fuzzy_kernel i arg2 harg2 arg3 harg3 arg4 harg4 arg5 harg5 arg6 harg6 arg7 harg7 arg8 harg8 arg9 harg9 arg10 harg10 arg11 harg11) K := by
  simp only [cc0__fuzzy_kernel_eq_skeleton]; unfold cc0__fuzzy_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg8.view f8 off00_zero _ _ []
  isplitl [H9]
  · iexists _; isplitr; swap; · iexact H9
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg9.view f9 off00_zero _ _ []
  isplitl [H10]
  · iexists _; isplitr; swap; · iexact H10
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg10.view f10 off00_zero _ _ _
  · iexists _; isplitr; swap; · iexact H11
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg11.view f11 off00_zero _ _ _

set_option maxHeartbeats 4000000 in
/-- The body at a later column block: the scratch holds the running sums `p` of the blocks before. -/
theorem kernel_run_carry (c : Dev nD) (i : grid0.Coords) (arg2 : Memref sig .tc .vmem S1024x768 .f32) (harg2 : arg2.IsWhole) (arg3 : Memref sig .tc .vmem S1024x768 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc : ¬ cond0 i) (x2 x3 : Vec F S1024x768 .f32) (x4 : Vec F S1024x1 .f32) (x5 : Vec F S1x1024 .f32) (x6 : Vec F S1024x1 .i32) (x7 : Vec F S1x1024 .i32) (p : Vec F S1024x1 .f32 × Vec F S1024x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ owns (c : Thread nD τ) arg10 fullShare p.1 ∗ owns (c : Thread nD τ) arg11 fullShare p.2
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (step x2 x3 x4 x5 x6 x7 p).1 ∗ owns (c : Thread nD τ) arg9 fullShare (step x2 x3 x4 x5 x6 x7 p).2
            ∗ owns (c : Thread nD τ) arg10 fullShare (step x2 x3 x4 x5 x6 x7 p).1 ∗ owns (c : Thread nD τ) arg11 fullShare (step x2 x3 x4 x5 x6 x7 p).2) -∗ K ⟨⟩))
      ⊢ wp frame (wpE (defs₀ (F := F)) Variants.none c none) E (cc0__fuzzy_kernel i arg2 harg2 arg3 harg3 arg4 harg4 arg5 harg5 arg6 harg6 arg7 harg7 arg8 harg8 arg9 harg9 arg10 harg10 arg11 harg11) K := by
  simp only [cc0__fuzzy_kernel_eq_skeleton]; unfold cc0__fuzzy_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10; obtain rfl := harg11.eq_unread hf11
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg8.view f8 off00_zero _ _ []
  isplitl [H9]
  · iexists _; isplitr; swap; · iexact H9
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg9.view f9 off00_zero _ _ []
  isplitl [H10]
  · iexists _; isplitr; swap; · iexact H10
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg10.view _ off00_zero _ _ []
  · iexists _; isplitr; swap; · iexact H11
    ipureintro
    sl_unfold_words
    dsimp only
    simp only [readCov_cons_unit_zero (S := S1024x1) _ off00_zero, View.readAt_eq_ld, Memref.IsWhole.read_unread, View.ld_unit_zero (S := S1024x1) off00_zero, View.ld_unit_zero (S := S1024x768) off00_zero, View.ld_unit_zero (S := S1x1024) off00_zero]
    exact read_writes_unit_zero arg11.view _ off00_zero _ _ []

end Cert.KernelIdeal.Hand

end
-- ==== Proof.KI.Oblig.lean ====
/-
  The body obligation of the one pipelined region.

  At every grid point the six input windows' current staging buffers hold their blocks, whether or not they were
  fetched at that point; the two output windows' buffers hold anything, since the body overwrites both wholly.  The
  region invariant hands the body the two scratch buffers: at anything before the first point, afterwards at the running
  sums the point before left.  At a first column block the body restarts both sums from zero; elsewhere it carries
  them on.  Either way it leaves the scratch and the two output buffers at the running sums after this point.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic
import proofs.«166931_j7370163880494_1_alg».proof.Proof.KI.Data
import proofs.«166931_j7370163880494_1_alg».proof.Proof.KI.Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input windows' buffers hold their blocks -/

/-- Input window 0's current staging buffer holds its block at every point, fetched there or not: unfetched, the
    block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-- Input window 1's current staging buffer holds its block at every point, fetched there or not: unfetched, the
    block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_1 (c : Dev nD) (t : Fin cfg0.N) (d) : (dats m 0 c).before 1 t d = iblk m c 1 t :=
  before0_1_of m (dats m 0 c) (A_eq m c 1) (after0_1 m c) t d

/-- Input window 2's current staging buffer holds its block at every point, fetched there or not: unfetched, the
    block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_2 (c : Dev nD) (t : Fin cfg0.N) (d) : (dats m 0 c).before 2 t d = iblk m c 2 t :=
  before0_2_of m (dats m 0 c) (A_eq m c 2) (after0_2 m c) t d

/-- Input window 3's current staging buffer holds its block at every point, fetched there or not: unfetched, the
    block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_3 (c : Dev nD) (t : Fin cfg0.N) (d) : (dats m 0 c).before 3 t d = iblk m c 3 t :=
  before0_3_of m (dats m 0 c) (A_eq m c 3) (after0_3 m c) t d

/-- Input window 4's current staging buffer holds its block at every point, fetched there or not: unfetched, the
    block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_4 (c : Dev nD) (t : Fin cfg0.N) (d) : (dats m 0 c).before 4 t d = iblk m c 4 t :=
  before0_4_of m (dats m 0 c) (A_eq m c 4) (after0_4 m c) t d

/-- Input window 5's current staging buffer holds its block at every point, fetched there or not: unfetched, the
    block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_5 (c : Dev nD) (t : Fin cfg0.N) (d) : (dats m 0 c).before 5 t d = iblk m c 5 t :=
  before0_5_of m (dats m 0 c) (A_eq m c 5) (after0_5 m c) t d

/-! ## The staging memrefs the pipeline passes -/

/-- Window 0's current staging memref at point `t`, and its wholeness. -/
abbrev ms0 (t : Fin cfg0.N) : Memref sig .tc .vmem S1024x768 .f32 := win0_0.stage (cfg0.slots t 0)
abbrev hs0 (t : Fin cfg0.N) : (ms0 t).IsWhole := hstage0_0 ((cfg0.slots t 0).cast nbuf0_0)
/-- No point is idle for window 0. -/
theorem liveAt0_0 : ∀ t : Fin cfg0.N, cfg0.idle 0 (grid0.coords t) = false := fun _ => rfl
/-- So the body leaves its buffer at the proof data's contents after the point. -/
theorem leaves0_0 (c : Dev nD) (t : Fin cfg0.N) :
    (dats m 0 c).leavesExact 0 t = owns (c : Thread nD τ) (ms0 t) fullShare ((dats m 0 c).after 0 t) := by
  unfold Dat.leavesExact; rw [liveAt0_0 t]

/-- Window 1's current staging memref at point `t`, and its wholeness. -/
abbrev ms1 (t : Fin cfg0.N) : Memref sig .tc .vmem S1024x768 .f32 := win0_1.stage (cfg0.slots t 1)
abbrev hs1 (t : Fin cfg0.N) : (ms1 t).IsWhole := hstage0_1 ((cfg0.slots t 1).cast nbuf0_1)
/-- No point is idle for window 1. -/
theorem liveAt0_1 : ∀ t : Fin cfg0.N, cfg0.idle 1 (grid0.coords t) = false := fun _ => rfl
/-- So the body leaves its buffer at the proof data's contents after the point. -/
theorem leaves0_1 (c : Dev nD) (t : Fin cfg0.N) :
    (dats m 0 c).leavesExact 1 t = owns (c : Thread nD τ) (ms1 t) fullShare ((dats m 0 c).after 1 t) := by
  unfold Dat.leavesExact; rw [liveAt0_1 t]

/-- Window 2's current staging memref at point `t`, and its wholeness. -/
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- No point is idle for window 2. -/
theorem liveAt0_2 : ∀ t : Fin cfg0.N, cfg0.idle 2 (grid0.coords t) = false := fun _ => rfl
/-- So the body leaves its buffer at the proof data's contents after the point. -/
theorem leaves0_2 (c : Dev nD) (t : Fin cfg0.N) :
    (dats m 0 c).leavesExact 2 t = owns (c : Thread nD τ) (ms2 t) fullShare ((dats m 0 c).after 2 t) := by
  unfold Dat.leavesExact; rw [liveAt0_2 t]

/-- Window 3's current staging memref at point `t`, and its wholeness. -/
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
/-- No point is idle for window 3. -/
theorem liveAt0_3 : ∀ t : Fin cfg0.N, cfg0.idle 3 (grid0.coords t) = false := fun _ => rfl
/-- So the body leaves its buffer at the proof data's contents after the point. -/
theorem leaves0_3 (c : Dev nD) (t : Fin cfg0.N) :
    (dats m 0 c).leavesExact 3 t = owns (c : Thread nD τ) (ms3 t) fullShare ((dats m 0 c).after 3 t) := by
  unfold Dat.leavesExact; rw [liveAt0_3 t]

/-- Window 4's current staging memref at point `t`, and its wholeness. -/
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
/-- No point is idle for window 4. -/
theorem liveAt0_4 : ∀ t : Fin cfg0.N, cfg0.idle 4 (grid0.coords t) = false := fun _ => rfl
/-- So the body leaves its buffer at the proof data's contents after the point. -/
theorem leaves0_4 (c : Dev nD) (t : Fin cfg0.N) :
    (dats m 0 c).leavesExact 4 t = owns (c : Thread nD τ) (ms4 t) fullShare ((dats m 0 c).after 4 t) := by
  unfold Dat.leavesExact; rw [liveAt0_4 t]

/-- Window 5's current staging memref at point `t`, and its wholeness. -/
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
/-- No point is idle for window 5. -/
theorem liveAt0_5 : ∀ t : Fin cfg0.N, cfg0.idle 5 (grid0.coords t) = false := fun _ => rfl
/-- So the body leaves its buffer at the proof data's contents after the point. -/
theorem leaves0_5 (c : Dev nD) (t : Fin cfg0.N) :
    (dats m 0 c).leavesExact 5 t = owns (c : Thread nD τ) (ms5 t) fullShare ((dats m 0 c).after 5 t) := by
  unfold Dat.leavesExact; rw [liveAt0_5 t]

/-- Window 6's current staging memref at point `t`, and its wholeness. -/
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- No point is idle for window 6. -/
theorem liveAt0_6 : ∀ t : Fin cfg0.N, cfg0.idle 6 (grid0.coords t) = false := fun _ => rfl
/-- So the body leaves its buffer at the proof data's contents after the point. -/
theorem leaves0_6 (c : Dev nD) (t : Fin cfg0.N) :
    (dats m 0 c).leavesExact 6 t = owns (c : Thread nD τ) (ms6 t) fullShare ((dats m 0 c).after 6 t) := by
  unfold Dat.leavesExact; rw [liveAt0_6 t]

/-- Window 7's current staging memref at point `t`, and its wholeness. -/
abbrev ms7 (t : Fin cfg0.N) : Memref sig .tc .vmem S1024x1 .f32 := win0_7.stage (cfg0.slots t 7)
abbrev hs7 (t : Fin cfg0.N) : (ms7 t).IsWhole := hstage0_7 ((cfg0.slots t 7).cast nbuf0_7)
/-- No point is idle for window 7. -/
theorem liveAt0_7 : ∀ t : Fin cfg0.N, cfg0.idle 7 (grid0.coords t) = false := fun _ => rfl
/-- So the body leaves its buffer at the proof data's contents after the point. -/
theorem leaves0_7 (c : Dev nD) (t : Fin cfg0.N) :
    (dats m 0 c).leavesExact 7 t = owns (c : Thread nD τ) (ms7 t) fullShare ((dats m 0 c).after 7 t) := by
  unfold Dat.leavesExact; rw [liveAt0_7 t]

/-! ## The invariant before the first point -/

/-- Before the first point the two scratch buffers are owned whole at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point.  The inputs' buffers hold their blocks; the outputs' hold anything.  At a first column block the
    running sums restart from zero, whatever the scratch held; elsewhere the scratch holds the sums the point before left
    and the body carries them on.  The scratch and both outputs are left at the running sums after this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  rw [after0_0, after0_1, after0_2, after0_3, after0_4, after0_5, after0_6, after0_7]
  by_cases h0 : t.val % 8 = 0
  · rw [accAt_reset m c t h0]; unfold stepAt
    by_cases hz : t.val = 0
    · rw [PhiS_castSucc m c t, PhiS_zero m c _ _ hz, scopedRest_owns]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel_run_reset c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((hcond0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel_run_reset c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((hcond0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      isplitl [HS1]; · iexists _; iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun h => h0 (by rw [h])
    rw [accAt_carry m c t h0]; unfold stepAt
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel_run_carry c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((hcond0 t).mp h)) (iblk m c 0 t) (iblk m c 1 t) (iblk m c 2 t) (iblk m c 3 t) (iblk m c 4 t) (iblk m c 5 t) (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Arrays.lean ====
/-
  The region's arrays: the distinct buffers behind the eight windows, each whole at the full share, are the windows'
  arrays at the shares the proof data name.  Two windows read the one matrix: its buffer at the full share is its
  left half share and its right half share at the same contents, one half for each of the two windows; each of the
  other six arrays goes whole to its one window.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic
import proofs.«166931_j7370163880494_1_alg».proof.Proof.KI.Data
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct arrays behind the eight windows. -/
theorem arrRefs_eq : Finset.univ.image (Pipeline.arrRef spec0) = [main_arg0, main_v2, main_v3, main_v4, main_v5, main_v6_0, main_v6_1].toFinset := by decide

/-- They are pairwise distinct. -/
theorem arrRefs_nodup : [main_arg0, main_v2, main_v3, main_v4, main_v5, main_v6_0, main_v6_1].Nodup := by decide

/-- The shares the arrays are held at: the two windows on the matrix hold a half each, every other window its array whole. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_6 (c : Dev nD) : (dats m 0 c).share 6 = fullShare := rfl

/-- The distinct buffers, one by one. -/
theorem arrBufs_chain (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v2) ↦{fullShare} Vv main_v2)
          ∗ (((c : Thread nD τ).loc main_v3) ↦{fullShare} Vv main_v3) ∗ (((c : Thread nD τ).loc main_v4) ↦{fullShare} Vv main_v4)
          ∗ (((c : Thread nD τ).loc main_v5) ↦{fullShare} Vv main_v5) ∗ (((c : Thread nD τ).loc main_v6_0) ↦{fullShare} Vv main_v6_0)
          ∗ (((c : Thread nD τ).loc main_v6_1) ↦{fullShare} Vv main_v6_1)) := by
  unfold Pipeline.arrBufs
  exact bigSep_eq_bigSepL_of_eq [main_arg0, main_v2, main_v3, main_v4, main_v5, main_v6_0, main_v6_1] arrRefs_eq arrRefs_nodup _

/-- The windows' arrays, one by one, at the shares the proof data name. -/
theorem arrays_chain (c : Dev nD) (G : (w : Fin cfg0.W) → Buf (Elt F) ((cfg0.win w).arr.view.loc (c : Thread nD τ))) :
    (dats m 0 c).arrays G
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4) ∗ (((c : Thread nD τ).loc main_v5) ↦{fullShare} G 5)
          ∗ (((c : Thread nD τ).loc main_v6_0) ↦{fullShare} G 6) ∗ (((c : Thread nD τ).loc main_v6_1) ↦{fullShare} G 7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- A buffer's full share is its two half shares at the same contents. -/
theorem halves (ℓ : Loc nD τ sig) (f : Buf (Elt F) ℓ) :
    ((ℓ ↦{fullShare} f : sProp 𝕄)) ⊣⊢ iprop((ℓ ↦{fullShare.left} f) ∗ (ℓ ↦{fullShare.right} f)) :=
  pointsTo_share (PosShare.mem_left_op_right fullShare)

/-- The distinct buffers behind the windows' arrays, whole at the full share, are the windows' arrays: the matrix's
    buffer is dealt in halves to the two windows on it. -/
theorem arrays_split (c : Dev nD) (Vv : (b : Ref sig .tc) → Buf (Elt F) ((c : Thread nD τ).loc b))
    (G : (w : Fin cfg0.W) → Buf (Elt F) ((cfg0.win w).arr.view.loc (c : Thread nD τ))) (hG : ∀ w, G w = Vv (Pipeline.arrRef spec0 w)) :
    (Pipeline.arrBufs spec0 c Vv : sProp 𝕄) ⊢ (dats m 0 c).arrays G := by
  have h0 : G 0 = Vv main_arg0 := hG 0
  have h1 : G 1 = Vv main_arg0 := hG 1
  have h2 : G 2 = Vv main_v2 := hG 2
  have h3 : G 3 = Vv main_v3 := hG 3
  have h4 : G 4 = Vv main_v4 := hG 4
  have h5 : G 5 = Vv main_v5 := hG 5
  have h6 : G 6 = Vv main_v6_0 := hG 6
  have h7 : G 7 = Vv main_v6_1 := hG 7
  rw [arrBufs_chain, arrays_chain, h0, h1, h2, h3, h4, h5, h6, h7]
  iintro ⟨H0, H2, H3, H4, H5, H6, H7⟩
  ihave H01 := (halves _ _).1 $$ H0
  icases H01 with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

/-- Conversely the windows' arrays give the distinct buffers back whole: the two windows on the matrix hold the same
    contents, so their halves join. -/
theorem arrays_join (c : Dev nD) (Vv : (b : Ref sig .tc) → Buf (Elt F) ((c : Thread nD τ).loc b))
    (G : (w : Fin cfg0.W) → Buf (Elt F) ((cfg0.win w).arr.view.loc (c : Thread nD τ))) (hG : ∀ w, G w = Vv (Pipeline.arrRef spec0 w)) :
    (dats m 0 c).arrays G ⊢ (Pipeline.arrBufs spec0 c Vv : sProp 𝕄) := by
  have h0 : G 0 = Vv main_arg0 := hG 0
  have h1 : G 1 = Vv main_arg0 := hG 1
  have h2 : G 2 = Vv main_v2 := hG 2
  have h3 : G 3 = Vv main_v3 := hG 3
  have h4 : G 4 = Vv main_v4 := hG 4
  have h5 : G 5 = Vv main_v5 := hG 5
  have h6 : G 6 = Vv main_v6_0 := hG 6
  have h7 : G 7 = Vv main_v6_1 := hG 7
  rw [arrBufs_chain, arrays_chain, h0, h1, h2, h3, h4, h5, h6, h7]
  iintro ⟨Hl, Hr, H2, H3, H4, H5, H6, H7⟩
  isplitl [Hl Hr]
  · iapply (halves _ _).2
    isplitl [Hl]; · iexact Hl
    iexact Hr
  isplitl [H2]; · iexact H2
  isplitl [H3]; · iexact H3
  isplitl [H4]; · iexact H4
  isplitl [H5]; · iexact H5
  isplitl [H6]; · iexact H6
  iexact H7

end Cert.KernelIdeal.Hand

end
-- ==== Proof.KI.Run.lean ====
/-
  The run of @main: seven host operations, the pipelined region, ten host operations — as three segments.
  Every weakly fair execution from a memory with zero counters terminates, and every unscoped buffer of a core ends
  at the valuation the three items compose: the launch contents through the first operations, the two results
  replaced by what the region's write-backs leave, then through the last operations.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic
import proofs.«166931_j7370163880494_1_alg».proof.Proof.KI.Oblig
import proofs.«166931_j7370163880494_1_alg».proof.Proof.KI.Arrays
import proofs.«166931_j7370163880494_1_alg».proof.Proof.KI.Kept
import proofs.«166931_j7370163880494_1_alg».proof.Proof.LibSharedRegion
import Idealize.ShloMosaic.Lib.Pipeline.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The pipeline library's algebra is the whole of the certificate's. -/
abbrev EP : Emb (UR sig nD τ) (MT nD τ sig Unit (Elt F) ℕ (UR sig nD τ) ℕ) := emb₁
abbrev 𝒱₀ : Variants := Variants.none
/-- No core owes another anything: no level is assigned. -/
abbrev Lv : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every item: the core owing nothing. -/
abbrev Rd (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host operations before the region, over the unscoped buffers from the launch contents. -/
def seg0 : Pipeline.HostSeg (Ix := Unit) (Name := ℕ) (U := UR sig nD τ) (Lvl := ℕ) (pcfgs (F := F)) defs₀ 𝒱₀ Lv lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) Rd
/-- The host operations after it, from the valuation the region leaves. -/
def seg1 : Pipeline.HostSeg (Ix := Unit) (Name := ℕ) (U := UR sig nD τ) (Lvl := ℕ) (pcfgs (F := F)) defs₀ 𝒱₀ Lv lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) Rd

/-- Every window's array ends, in the valuation the region leaves, at what the write-backs leave in it: an input's
    array as it was, a result's at its flushed blocks. -/
theorem isOut_cases : ∀ w : Fin cfg0.W, (cfg0.win w).isOut = false ∨ w = 6 ∨ w = 7 := by decide +kernel

set_option maxHeartbeats 2000000 in
theorem arrAt_V2 (c : Dev nD) (w : Fin cfg0.W) :
    (dats m 0 c).arrAt w cfg0.N = V2 m c (Proc.devRef .tc (Pipeline.arrRef spec0 w)) := by
  rcases isOut_cases w with hw | rfl | rfl
  · exact ((dats m 0 c).arrAt_in w hw _).trans ((A_eq m c w).trans (V2_in m c w hw).symm)
  · exact (V2_out6 m c).symm
  · exact (V2_out7 m c).symm

/-- The invariant before the first point is the scoped buffers the pipeline does not stage, at anything. -/
theorem hΦin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the running sums' names are forgotten. -/
theorem hΦout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c cfg0.N (Nat.le_refl _) from rfl,
    PhiS_pos m c _ _ (by rw [show cfg0.N = 64 from N_0]; decide), scopedRest_owns]
  iintro ⟨H0, H1⟩
  isplitl [H0]
  · iexists _; iexact H0
  iexists _; iexact H1

theorem hsplit (c : Dev nD) :
    (Pipeline.arrBufs spec0 c (fun b => V1 m c (Proc.devRef .tc b)) : sProp 𝕄) ⊢ (dats m 0 c).arrays ((dats m 0 c).arrAt · 0) :=
  arrays_split m c (fun b => V1 m c (Proc.devRef .tc b)) _ (fun w => A_eq m c w)

theorem hjoin (c : Dev nD) :
    (dats m 0 c).arrays ((dats m 0 c).arrAt · cfg0.N) ⊢ (Pipeline.arrBufs spec0 c (fun b => V2 m c (Proc.devRef .tc b)) : sProp 𝕄) :=
  arrays_join m c (fun b => V2 m c (Proc.devRef .tc b)) _ (fun w => arrAt_V2 m c w)

theorem hrest (c : Dev nD) (b : Ref sig .tc) (hb : b ∉ Finset.univ.image (Pipeline.arrRef spec0)) :
    V2 m c (Proc.devRef .tc b) = V1 m c (Proc.devRef .tc b) :=
  V2_other m c b (fun w h => hb (Finset.mem_image.mpr ⟨w, Finset.mem_univ _, h⟩))

theorem hpre (c : Dev nD) : (BI.emp : sProp 𝕄) ⊢ Pipeline.prefHeld (pcfgs (F := F) 0).pre c (fun _ => fullShare) (adm (F := F) 0).1 := by
  unfold Pipeline.prefHeld; rw [show (Finset.univ : Finset (Fin 0)) = ∅ from rfl, BI.bigSep_empty]

set_option backward.isDefEq.respectTransparency.types false in
set_option maxHeartbeats 4000000 in
/-- The region, entered from the valuation the first operations leave and left at the one with the two results
    replaced: the matrix's buffer is split between the two windows that read it and made whole again at the exit. -/
def reg0 : Pipeline.RegionSeg (pcfgs (F := F)) adm (dats m) () defs₀ 𝒱₀ Lv lv 0 :=
  Pipeline.SharedIn.region (U' := UR sig nD τ) (pcfgs (F := F)) adm (dats m) defs₀ 𝒱₀ Lv lv 0 winFacts₀0 block_pos0 stage_whole0
    (body_obligation m) (fun _ _ => rfl) (fun _ _ => rfl) (hΦin m) (hΦout m) hpre (V1 m) (V2 m) (hsplit m) (hjoin m) (hrest m)

/-- @main as the list of the three. -/
abbrev segs : List (Pipeline.Seg (pcfgs (F := F)) adm (dats m) () defs₀ 𝒱₀ Lv lv) :=
  [.host (seg0 m), .region (reg0 m), .host (seg1 m)]

/-- The launch element: the pipeline library's at the staging cells. -/
def u₀ : UR sig nD τ := initOf (Pipeline.cells cfgs cellOf_inj) (Pipeline.launchToks cfgs cellOf_inj)

set_option backward.isDefEq.respectTransparency.types false in
set_option maxHeartbeats 4000000 in
/-- At the compiled mesh, for any float values, from any memory with zero counters: every weakly fair execution of
    @main on the TensorCores terminates, and every unscoped buffer ends at the composed valuation. -/
theorem run_main : θ_run defs (onTc (τ := τ) (main (F := F))) ⟨m, fun _ => 0, ρ⟩
    (fun r => ∀ c : Dev nD, ∀ b : Ref sig .tc, b.isScoped = false →
      r.2.mem ((c.tc : Thread nD τ).loc b) = V3 m c (Proc.devRef .tc b)) := by
  refine Pipeline.θ_run_regions_kit (pcfgs (F := F)) adm (dats m) () cellOf_inj EP defs₀ 𝒱₀ Lv lv m ρ main (segs m)
    (fun c Q => by rw [main_segs adm (dats m) () 𝒱₀ Lv lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp)) (u₀ := u₀)
    (hu₀ := ?_)
    (T₀ := fun c => iprop(StableHlo.held (c : Thread nD τ) (Pipeline.ucRefs τ sig) (V₀ m c) ∗ Rd c))
    (Tₙ := fun c => StableHlo.held (c : Thread nD τ) (Pipeline.ucRefs τ sig) (V3 m c))
    (hch := ⟨fun _ => .rfl, fun _ => .rfl, fun _ => .rfl, fun _ => .rfl⟩)
    (hinit := ?_)
    (QY := fun c s => ∀ b : Ref sig .tc, b.isScoped = false → s.mem ((c.tc : Thread nD τ).loc b) = V3 m c (Proc.devRef .tc b))
    (hfin := fun c s' => ?_) (hQ := fun _ h => h)
  · unfold u₀
    rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach Lv lv fun c => ?_
    rw [show unscopedBufs c (fun b => m ((c : Thread nD τ).loc b)) = StableHlo.held (c : Thread nD τ) (Pipeline.ucRefs τ sig) (V₀ m c) from Pipeline.unscopedBufs_held c (V₀ m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V3 m c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, by simpa using hb⟩)
    · iexact HSI

/-- info: 'Cert.KernelIdeal.Hand.run_main' depends on axioms: [propext, Classical.choice, Quot.sound] -/
#guard_msgs in #print axioms run_main

end Cert.KernelIdeal.Hand

end
-- ==== Proof.Spec.lean ====
/-
  The loss both programs compute, as one function of the matrix `x` (8192 rows of 768 extended reals) and the 8192
  integer labels, index by index on the extended reals:

    nrm i      = Σₖ x[i,k]²
    gram i j   = Σₖ x[i,k]·x[j,k]
    fz i j     = exp (((nrm i + nrm j) − 2·gram i j) · (−½))
    msk i j    = 1 if the labels of i and j agree, else 0
    pos i      = Σⱼ fz i j · msk i j          tot i = Σⱼ fz i j
    loss       = (Σᵢ −log (pos i / (tot i + ε))) / 8192

  The four float literals are kept as their words: the same word stands on both sides of every comparison.
-/
import Idealize.ShloMosaic.PureOps.Ideal
import Idealize.ShloMosaic.Lib.ValueIdx

noncomputable section

namespace Cert.Spec

open Idealize.ShloMosaic Idealize.ShloMosaic.ValueIdx

/-- The matrix and the labels, as the programs' argument arrays hold them at the ideal instance. -/
abbrev Mat : Type := (⟨2, ![8192, 768]⟩ : Shape).Idx → EReal
abbrev Lab : Type := (⟨1, ![8192]⟩ : Shape).Idx → BitVec 32

def two : EReal := Ideal.ofBits .f32 0x40000000#32
def mhalf : EReal := Ideal.ofBits .f32 0xBF000000#32
def eps : EReal := Ideal.ofBits .f32 0x322BCC77#32
def cnt : EReal := Ideal.ofBits .f32 0x46000000#32

/-- The squared norm of row `i`. -/
def nrm (x : Mat) (i : Fin 8192) : EReal := ∑ k : Fin 768, x (ix2 i k) * x (ix2 i k)
/-- The inner product of rows `i` and `j`. -/
def gram (x : Mat) (i j : Fin 8192) : EReal := ∑ k : Fin 768, x (ix2 i k) * x (ix2 j k)
/-- The fuzzy relation between rows `i` and `j`. -/
def fz (x : Mat) (i j : Fin 8192) : EReal := Ideal.exp (((nrm x i + nrm x j) - two * gram x i j) * mhalf)
/-- Whether rows `i` and `j` carry the same label. -/
def msk (l : Lab) (i j : Fin 8192) : EReal := if l (ix1 i) = l (ix1 j) then 1 else 0
def pos (x : Mat) (l : Lab) (i : Fin 8192) : EReal := ∑ j : Fin 8192, fz x i j * msk l i j
def tot (x : Mat) (i : Fin 8192) : EReal := ∑ j : Fin 8192, fz x i j
def loss (x : Mat) (l : Lab) : EReal :=
  Ideal.div (∑ i : Fin 8192, -(Ideal.log (Ideal.div (pos x l i) (tot x i + eps)))) cnt

end Cert.Spec

end
-- ==== Proof.KI.ValPay.lean ====
/-
  One tile's update of the two running sums, read at a row of the column vector, on the extended reals.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic
import proofs.«166931_j7370163880494_1_alg».proof.Proof.KI.Data
import proofs.«166931_j7370163880494_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-- The tile's entry for row `r` and column `q`: exp (((‖row‖² + ‖col‖²) − 2·⟨row, col⟩)·(−½)). -/
def tile (x2 x3 : Vec Ideal S1024x768 .f32) (x4 : Vec Ideal S1024x1 .f32) (x5 : Vec Ideal S1x1024 .f32) (r q : Fin 1024) : EReal :=
  Ideal.exp (((x4 (ix2 r (0 : Fin 1)) + x5 (ix2 (0 : Fin 1) q)) - Cert.Spec.two * ∑ k : Fin 768, x2 (ix2 r k) * x3 (ix2 q k)) * Cert.Spec.mhalf)

/-- Whether the row's and the column's labels agree, as 1 or 0. -/
def same (x6 : Vec Ideal S1024x1 .i32) (x7 : Vec Ideal S1x1024 .i32) (r q : Fin 1024) : EReal :=
  if x6 (ix2 r (0 : Fin 1)) = x7 (ix2 (0 : Fin 1) q) then 1 else 0

/-- The transposed column block at (k, q) is the column block at (q, k). -/
theorem transpose_at (x3 : Vec Ideal S1024x768 .f32) (k : Fin 768) (q : Fin 1024) :
    transpose S768x1024 [1, 0] x3 transposes_S1024x768_p1_0_S768x1024 (ix2 k q) = x3 (ix2 q k) :=
  transpose_apply [1, 0] x3 transposes_S1024x768_p1_0_S768x1024 (ix2 k q) (ix2 q k) (fun b => match b with
    | ⟨0, _⟩ => rfl
    | ⟨1, _⟩ => rfl)

/-- A column vector spread over the columns reads its row. -/
theorem bcol_at {α : Type} (v : S1024x1.Idx → α) (r q : Fin 1024) :
    broadcastTo S1024x1024 v broadcasts_S1024x1_S1024x1024 (ix2 r q) = v (ix2 r (0 : Fin 1)) :=
  broadcastTo_apply v broadcasts_S1024x1_S1024x1024 (ix2 r q) (ix2 r (0 : Fin 1)) (fun a => match a with
    | ⟨0, _⟩ => by show r.val = if (1024 : Nat) = 1 then 0 else r.val; rw [if_neg (by decide)]
    | ⟨1, _⟩ => by show 0 = if (1 : Nat) = 1 then 0 else q.val; rw [if_pos rfl])

/-- A row vector spread over the rows reads its column. -/
theorem brow_at {α : Type} (v : S1x1024.Idx → α) (r q : Fin 1024) :
    broadcastTo S1024x1024 v broadcasts_S1x1024_S1024x1024 (ix2 r q) = v (ix2 (0 : Fin 1) q) :=
  broadcastTo_apply v broadcasts_S1x1024_S1024x1024 (ix2 r q) (ix2 (0 : Fin 1) q) (fun a => match a with
    | ⟨0, _⟩ => by show 0 = if (1 : Nat) = 1 then 0 else r.val; rw [if_pos rfl]
    | ⟨1, _⟩ => by show q.val = if (1024 : Nat) = 1 then 0 else q.val; rw [if_neg (by decide)])

/-- A vector recast as a column reads its coordinate. -/
theorem col_at {α : Type} (v : S1024.Idx → α) (r : Fin 1024) :
    shapeCast S1024x1 v shapeCasts_S1024_S1024x1 (ix2 r (0 : Fin 1)) = v (ix1 r) :=
  shapeCast_apply v shapeCasts_S1024_S1024x1 (ix2 r (0 : Fin 1)) (ix1 r) (by
    rw [Shape.rowMajor_val_one, Shape.rowMajor_val_two]
    show r.val = r.val * 1 + 0
    omega)

/-- The row sums of a square block, read at a row. -/
theorem rowsum_at (v : FVec Ideal S1024x1024 .f32) (r : Fin 1024) :
    multiReduction (F := Ideal) .add [1] S1024 v 0x00000000#32 reduces_S1024x1024_S1024 (.inl rfl) rfl (ix1 r) = ∑ q : Fin 1024, v (ix2 r q) := by
  refine (Ideal.multiReduction_add_single v _ reduces_S1024x1024_S1024 (.inl rfl) rfl (ix1 r)).trans ?_
  refine Finset.sum_congr rfl fun k _ => ?_
  exact congrArg v (funext fun a => Fin.ext (by match a with | ⟨0, _⟩ => rfl | ⟨1, _⟩ => rfl))

theorem lhs_dot_0 (i : S1024x1024.Idx) (q : dot_S1024x768_S768x1024_S1024x1024_1_0_0_1_n_n.contr.Idx) :
    (dot_S1024x768_S768x1024_S1024x1024_1_0_0_1_n_n.lhsIdx i q 0).val = (i 0).val := by
  unfold DotDims.lhsIdx
  rw [dif_neg (show ¬(0 : Fin S1024x768.rank) ∈ dot_S1024x768_S768x1024_S1024x1024_1_0_0_1_n_n.lhsBatch by decide), dif_pos (show (0 : Fin S1024x768.rank) ∈ dot_S1024x768_S768x1024_S1024x1024_1_0_0_1_n_n.lhsNonContracting by decide)]
  rfl
theorem lhs_dot_1 (i : S1024x1024.Idx) (q : dot_S1024x768_S768x1024_S1024x1024_1_0_0_1_n_n.contr.Idx) :
    (dot_S1024x768_S768x1024_S1024x1024_1_0_0_1_n_n.lhsIdx i q 1).val = (q ⟨0, by decide⟩).val :=
  dot_S1024x768_S768x1024_S1024x1024_1_0_0_1_n_n.lhsIdx_val_of_single rfl i q
theorem rhs_dot_0 (i : S1024x1024.Idx) (q : dot_S1024x768_S768x1024_S1024x1024_1_0_0_1_n_n.contr.Idx) :
    (dot_S1024x768_S768x1024_S1024x1024_1_0_0_1_n_n.rhsIdx i q 0).val = (q ⟨0, by decide⟩).val :=
  dot_S1024x768_S768x1024_S1024x1024_1_0_0_1_n_n.rhsIdx_val_of_single rfl i q
theorem rhs_dot_1 (i : S1024x1024.Idx) (q : dot_S1024x768_S768x1024_S1024x1024_1_0_0_1_n_n.contr.Idx) :
    (dot_S1024x768_S768x1024_S1024x1024_1_0_0_1_n_n.rhsIdx i q 1).val = (i 1).val := by
  unfold DotDims.rhsIdx
  rw [dif_neg (show ¬(1 : Fin S768x1024.rank) ∈ dot_S1024x768_S768x1024_S1024x1024_1_0_0_1_n_n.rhsBatch by decide), dif_pos (show (1 : Fin S768x1024.rank) ∈ dot_S1024x768_S768x1024_S1024x1024_1_0_0_1_n_n.rhsNonContracting by decide)]
  rfl

/-- The product into the zero accumulator at (r, q): the sum over k of the left at (r, k) times the right at (k, q). -/
theorem dot_at (a : FVec Ideal S1024x768 .f32) (b : FVec Ideal S768x1024 .f32) (r q : Fin 1024) :
    matmul dot_S1024x768_S768x1024_S1024x1024_1_0_0_1_n_n (some .fp32) a b (constant (F := Ideal) S1024x1024 .f32 0x00000000#32) (ix2 r q)
      = ∑ k : Fin 768, a (ix2 r k) * b (ix2 k q) := by
  simp only [matmul]
  rw [Ideal.matmul_constant_zero_apply, ← Equiv.sum_comp (ValueIdx.contrEquiv1 dot_S1024x768_S768x1024_S1024x1024_1_0_0_1_n_n 768 rfl rfl).symm]
  refine Finset.sum_congr rfl fun k _ => ?_
  have hk := ValueIdx.contrEquiv1_symm_val dot_S1024x768_S768x1024_S1024x1024_1_0_0_1_n_n 768 rfl rfl k
  have el : dot_S1024x768_S768x1024_S1024x1024_1_0_0_1_n_n.lhsIdx (ix2 r q) ((ValueIdx.contrEquiv1 dot_S1024x768_S768x1024_S1024x1024_1_0_0_1_n_n 768 rfl rfl).symm k) = ix2 r k := funext fun c => Fin.ext (by
    match c with
    | ⟨0, _⟩ => exact lhs_dot_0 _ _
    | ⟨1, _⟩ => exact (lhs_dot_1 _ _).trans hk)
  have er : dot_S1024x768_S768x1024_S1024x1024_1_0_0_1_n_n.rhsIdx (ix2 r q) ((ValueIdx.contrEquiv1 dot_S1024x768_S768x1024_S1024x1024_1_0_0_1_n_n 768 rfl rfl).symm k) = ix2 k q := funext fun c => Fin.ext (by
    match c with
    | ⟨0, _⟩ => exact (rhs_dot_0 _ _).trans hk
    | ⟨1, _⟩ => exact rhs_dot_1 _ _)
  rw [el, er]

/-- The product with the transposed column block at (r, q): the inner product of row r and row q. -/
theorem dotT_at (a b : FVec Ideal S1024x768 .f32) (r q : Fin 1024) :
    matmul dot_S1024x768_S768x1024_S1024x1024_1_0_0_1_n_n (some .fp32) a (transpose S768x1024 [1, 0] b transposes_S1024x768_p1_0_S768x1024)
        (constant (F := Ideal) S1024x1024 .f32 0x00000000#32) (ix2 r q)
      = ∑ k : Fin 768, a (ix2 r k) * b (ix2 q k) :=
  (dot_at a _ r q).trans (Finset.sum_congr rfl fun k _ => congrArg (a (ix2 r k) * ·) (transpose_at b k q))

/-- The comparison's bit, widened and read as an integer: 1 where the two words agree … -/
theorem mask_eq {x y : BitVec 32} (h : x = y) :
    (FloatOps.sitofp .f32 ((IntOp.cmpi .eq x y).setWidth 32) : Ideal .f32) = 1 := by
  have hb : IntOp.cmpi .eq x y = 1#1 := by unfold IntOp.cmpi; simp [h]
  rw [hb]
  show (((BitVec.setWidth 32 1#1).toInt : ℝ) : EReal) = 1
  have h1 : (BitVec.setWidth 32 1#1).toInt = 1 := by decide
  rw [h1]; simp

/-- … and 0 where they differ. -/
theorem mask_ne {x y : BitVec 32} (h : ¬ x = y) :
    (FloatOps.sitofp .f32 ((IntOp.cmpi .eq x y).setWidth 32) : Ideal .f32) = 0 := by
  have hf : (x == y) = false := beq_eq_false_iff_ne.mpr h
  have hb : IntOp.cmpi .eq x y = 0#1 := by
    show BitVec.ofBool (x == y) = 0#1
    rw [hf]; rfl
  rw [hb]
  show (((BitVec.setWidth 32 0#1).toInt : ℝ) : EReal) = 0
  have h0 : (BitVec.setWidth 32 0#1).toInt = 0 := by decide
  rw [h0]; simp

/-- The label mask at (r, q). -/
theorem mask_at (x6 : Vec Ideal S1024x1 .i32) (x7 : Vec Ideal S1x1024 .i32) (r q : Fin 1024) :
    (sitofp .f32 (extui 32 (cmpi .eq (broadcastTo S1024x1024 (shapeCast S1024x1 x6 shapeCasts_S1024x1_S1024x1) broadcasts_S1024x1_S1024x1024)
      (broadcastTo S1024x1024 (shapeCast S1x1024 x7 shapeCasts_S1x1024_S1x1024) broadcasts_S1x1024_S1024x1024)) natLt_1_32) : FVec Ideal S1024x1024 .f32) (ix2 r q)
      = same x6 x7 r q := by
  rw [shapeCast_self, shapeCast_self]
  show (FloatOps.sitofp .f32 ((IntOp.cmpi .eq (broadcastTo S1024x1024 x6 broadcasts_S1024x1_S1024x1024 (ix2 r q))
      (broadcastTo S1024x1024 x7 broadcasts_S1x1024_S1024x1024 (ix2 r q))).setWidth 32) : Ideal .f32) = _
  rw [bcol_at, brow_at]
  unfold same
  by_cases h : x6 (ix2 r (0 : Fin 1)) = x7 (ix2 (0 : Fin 1) q)
  · rw [if_pos h]; exact mask_eq h
  · rw [if_neg h]; exact mask_ne h

/-- The tile of exponentials at (r, q). -/
theorem pay5_apply (x2 x3 : Vec Ideal S1024x768 .f32) (x4 : Vec Ideal S1024x1 .f32) (x5 : Vec Ideal S1x1024 .f32) (r q : Fin 1024) :
    k0_pay5 (F := Ideal) x2 x3 x4 x5 (ix2 r q) = tile x2 x3 x4 x5 r q := by
  unfold k0_pay5 tile
  show Ideal.exp (((broadcastTo S1024x1024 (shapeCast S1024x1 x4 shapeCasts_S1024x1_S1024x1) broadcasts_S1024x1_S1024x1024 (ix2 r q)
      + broadcastTo S1024x1024 (shapeCast S1x1024 x5 shapeCasts_S1x1024_S1x1024) broadcasts_S1x1024_S1024x1024 (ix2 r q))
      - Ideal.ofBits .f32 0x40000000#32 * matmul dot_S1024x768_S768x1024_S1024x1024_1_0_0_1_n_n (some .fp32) x2 (transpose S768x1024 [1, 0] x3 transposes_S1024x768_p1_0_S768x1024)
          (constant (F := Ideal) S1024x1024 .f32 0x00000000#32) (ix2 r q))
      * Ideal.ofBits .f32 0xBF000000#32) = _
  rw [shapeCast_self, shapeCast_self, bcol_at, brow_at, dotT_at]
  rfl

/-- The masked row sums added to the running column, at row r. -/
theorem pay6_apply (x2 x3 : Vec Ideal S1024x768 .f32) (x4 : Vec Ideal S1024x1 .f32) (x5 : Vec Ideal S1x1024 .f32) (x6 : Vec Ideal S1024x1 .i32) (x7 : Vec Ideal S1x1024 .i32)
    (p : Vec Ideal S1024x1 .f32) (r : Fin 1024) :
    k0_pay6 (F := Ideal) x2 x3 x4 x5 x6 x7 p (ix2 r (0 : Fin 1)) = p (ix2 r (0 : Fin 1)) + ∑ q : Fin 1024, tile x2 x3 x4 x5 r q * same x6 x7 r q := by
  unfold k0_pay6
  show p (ix2 r (0 : Fin 1)) + shapeCast S1024x1 (multiReduction (F := Ideal) .add [1] S1024
      (mulf (k0_pay5 (F := Ideal) x2 x3 x4 x5) (sitofp .f32 (extui 32 (cmpi .eq (broadcastTo S1024x1024 (shapeCast S1024x1 x6 shapeCasts_S1024x1_S1024x1) broadcasts_S1024x1_S1024x1024)
        (broadcastTo S1024x1024 (shapeCast S1x1024 x7 shapeCasts_S1x1024_S1x1024) broadcasts_S1x1024_S1024x1024)) natLt_1_32)))
      0x00000000#32 reduces_S1024x1024_S1024 (.inl rfl) rfl) shapeCasts_S1024_S1024x1 (ix2 r (0 : Fin 1)) = _
  rw [col_at, rowsum_at]
  refine congrArg (_ + ·) (Finset.sum_congr rfl fun q _ => ?_)
  rw [mulf_apply, pay5_apply]
  exact congrArg (_ * ·) (mask_at x6 x7 r q)

/-- The row sums added to the running column, at row r. -/
theorem pay2_apply (v : FVec Ideal S1024x1024 .f32) (p : Vec Ideal S1024x1 .f32) (r : Fin 1024) :
    k0_pay2 (F := Ideal) v p (ix2 r (0 : Fin 1)) = p (ix2 r (0 : Fin 1)) + ∑ q : Fin 1024, v (ix2 r q) := by
  unfold k0_pay2
  show shapeCast S1024x1 (addf p (shapeCast S1024x1 (multiReduction (F := Ideal) .add [1] S1024 v 0x00000000#32 reduces_S1024x1024_S1024 (.inl rfl) rfl) shapeCasts_S1024_S1024x1))
      shapeCasts_S1024x1_S1024x1 (ix2 r (0 : Fin 1)) = _
  rw [shapeCast_self, addf_apply, col_at, rowsum_at]

/-- The stored column is the computed one. -/
theorem pay1_eq (v : FVec Ideal S1024x1 .f32) : k0_pay1 (F := Ideal) v = v := by
  unfold k0_pay1
  exact shapeCast_self v shapeCasts_S1024x1_S1024x1

theorem step_fst_apply (x2 x3 : Vec Ideal S1024x768 .f32) (x4 : Vec Ideal S1024x1 .f32) (x5 : Vec Ideal S1x1024 .f32) (x6 : Vec Ideal S1024x1 .i32) (x7 : Vec Ideal S1x1024 .i32)
    (p : Vec Ideal S1024x1 .f32 × Vec Ideal S1024x1 .f32) (r : Fin 1024) :
    (step (F := Ideal) x2 x3 x4 x5 x6 x7 p).1 (ix2 r (0 : Fin 1)) = p.1 (ix2 r (0 : Fin 1)) + ∑ q : Fin 1024, tile x2 x3 x4 x5 r q * same x6 x7 r q := by
  show k0_pay1 (F := Ideal) (k0_pay6 (F := Ideal) x2 x3 x4 x5 x6 x7 p.1) (ix2 r (0 : Fin 1)) = _
  rw [pay1_eq]
  exact pay6_apply x2 x3 x4 x5 x6 x7 p.1 r

theorem step_snd_apply (x2 x3 : Vec Ideal S1024x768 .f32) (x4 : Vec Ideal S1024x1 .f32) (x5 : Vec Ideal S1x1024 .f32) (x6 : Vec Ideal S1024x1 .i32) (x7 : Vec Ideal S1x1024 .i32)
    (p : Vec Ideal S1024x1 .f32 × Vec Ideal S1024x1 .f32) (r : Fin 1024) :
    (step (F := Ideal) x2 x3 x4 x5 x6 x7 p).2 (ix2 r (0 : Fin 1)) = p.2 (ix2 r (0 : Fin 1)) + ∑ q : Fin 1024, tile x2 x3 x4 x5 r q := by
  show k0_pay2 (F := Ideal) (k0_pay5 (F := Ideal) x2 x3 x4 x5) p.2 (ix2 r (0 : Fin 1)) = _
  rw [pay2_apply]
  exact congrArg (_ + ·) (Finset.sum_congr rfl fun q _ => pay5_apply x2 x3 x4 x5 r q)

theorem zero2_fst_apply (r : Fin 1024) : (zero2 (F := Ideal)).1 (ix2 r (0 : Fin 1)) = 0 := by
  show k0_pay3 (F := Ideal) (ix2 r (0 : Fin 1)) = 0
  unfold k0_pay3
  show shapeCast S1024x1 (broadcast S1024x1 (Ideal.ofBits .f32 0x00000000#32)) shapeCasts_S1024x1_S1024x1 (ix2 r (0 : Fin 1)) = 0
  rw [shapeCast_self, broadcast_apply, Ideal.ofBits_zero_f32]

theorem zero2_snd_apply (r : Fin 1024) : (zero2 (F := Ideal)).2 (ix2 r (0 : Fin 1)) = 0 := by
  show k0_pay4 (F := Ideal) (ix2 r (0 : Fin 1)) = 0
  unfold k0_pay4
  show shapeCast S1024x1 (broadcast S1024x1 (Ideal.ofBits .f32 0x00000000#32)) shapeCasts_S1024x1_S1024x1 (ix2 r (0 : Fin 1)) = 0
  rw [shapeCast_self, broadcast_apply, Ideal.ofBits_zero_f32]

end Cert.KernelIdeal.Hand

end
-- ==== Proof.KI.ValAcc.lean ====
/-
  The two result arrays after the region, index by index on the extended reals, as functions of the five arrays the
  region is entered with: the matrix x, a column vector a and a row vector b of extended reals, a column vector and a
  row vector of labels.  Row `row` of the second result holds the sum over all columns `col` of
  exp (((a[row] + b[col]) − 2·⟨x[row], x[col]⟩)·(−½)); row `row` of the first holds the same sum restricted to the
  columns whose label agrees with the row's.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic
import proofs.«166931_j7370163880494_1_alg».proof.Proof.KI.Data
import proofs.«166931_j7370163880494_1_alg».proof.Proof.Spec
import proofs.«166931_j7370163880494_1_alg».proof.Proof.KI.ValPay
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Algebra.BigOperators.Ring.Finset

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-- The five arrays as the region finds them, at their literal types. -/
abbrev xs (c : Dev nD) : Vec Ideal S8192x768 .f32 := V m c main_arg0
abbrev na (c : Dev nD) : Vec Ideal S8192x1 .f32 := V m c main_v2
abbrev nb (c : Dev nD) : Vec Ideal S1x8192 .f32 := V m c main_v3
abbrev la (c : Dev nD) : Vec Ideal S8192x1 .i32 := V m c main_v4
abbrev lb (c : Dev nD) : Vec Ideal S1x8192 .i32 := V m c main_v5

/-- The relation's entry for row `row` and column `col` of the whole matrix. -/
def E (c : Dev nD) (row col : Fin 8192) : EReal :=
  Ideal.exp (((na m c (ix2 row (0 : Fin 1)) + nb m c (ix2 (0 : Fin 1) col)) - Cert.Spec.two * ∑ k : Fin 768, xs m c (ix2 row k) * xs m c (ix2 col k)) * Cert.Spec.mhalf)

/-- Whether the labels of row `row` and column `col` agree, as 1 or 0. -/
def M (c : Dev nD) (row col : Fin 8192) : EReal :=
  if la m c (ix2 row (0 : Fin 1)) = lb m c (ix2 (0 : Fin 1) col) then 1 else 0

/-- Row (or column) `r` of block `b`, in the whole array: 1024·b + r. -/
def at8 (b : Fin 8) (r : Fin 1024) : Fin 8192 := ⟨1024 * b.val + r.val, by have := b.isLt; have := r.isLt; omega⟩

/-- The grid has 64 points. -/
theorem N64 : cfg0.N = 64 := by decide

/-- The index maps over the grid: point t = 8·i + j reads row block i and column block j. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val % 8
    ∧ win0_6.index t (0 : Fin 2) = t.val / 8 ∧ win0_6.index t (1 : Fin 2) = 0
    ∧ win0_7.index t (0 : Fin 2) = t.val / 8 ∧ win0_7.index t (1 : Fin 2) = 0 :=
  (by decide +kernel : ∀ t : Fin grid0.N, _)

/-- The row block of the matrix at point 8·i + j is rows 1024·i … of the matrix. -/
theorem iblk0_apply (c : Dev nD) (t : Fin cfg0.N) (ib jb : Fin 8) (ht : t.val = 8 * ib.val + jb.val) (r : Fin 1024) (k : Fin 768) :
    (iblk m c 0 t : Vec Ideal S1024x768 .f32) (ix2 r k) = xs m c (ix2 (at8 ib r) k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * r.val = 1024 * ib.val + r.val; have := jb.isLt; omega
  | ⟨1, _⟩ => show win0_0.index t (1 : Fin 2) * 768 + 1 * k.val = k.val; omega

/-- The column block of the matrix at point 8·i + j is rows 1024·j … of the matrix. -/
theorem iblk1_apply (c : Dev nD) (t : Fin cfg0.N) (ib jb : Fin 8) (ht : t.val = 8 * ib.val + jb.val) (q : Fin 1024) (k : Fin 768) :
    (iblk m c 1 t : Vec Ideal S1024x768 .f32) (ix2 q k) = xs m c (ix2 (at8 jb q) k) := by
  obtain ⟨-, -, e0, e1, -⟩ := idx_facts t
  unfold iblk
  rw [View.read_apply]
  show V m c main_arg0 _ = V m c main_arg0 _
  congr 1
  funext a
  apply Fin.ext
  match a with
  | ⟨0, _⟩ => show win0_1.index t (0 : Fin 2) * 1024 + 1 * q.val = 1024 * jb.val + q.val; have := jb.isLt; omega
  | ⟨1, _⟩ => show win0_1.index t (1 : Fin 2) * 768 + 1 * k.val = k.val; omega

theorem iblk2_apply (c : Dev nD) (t : Fin cfg0.N) (ib jb : Fin 8) (ht : t.val = 8 * ib.val + jb.val) (r : Fin 1024) :
    (iblk m c 2 t : Vec Ideal S1024x1 .f32) (ix2 r (0 : Fin 1)) = na m c (ix2 (at8 ib r) (0 : Fin 1)) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 1024 + 1 * r.val = 1024 * ib.val + r.val; have := jb.isLt; omega
  | ⟨1, _⟩ => show win0_2.index t (1 : Fin 2) * 1 + 1 * 0 = 0; omega

theorem iblk3_apply (c : Dev nD) (t : Fin cfg0.N) (ib jb : Fin 8) (ht : t.val = 8 * ib.val + jb.val) (q : Fin 1024) :
    (iblk m c 3 t : Vec Ideal S1x1024 .f32) (ix2 (0 : Fin 1) q) = nb m c (ix2 (0 : Fin 1) (at8 jb q)) := by
  obtain ⟨-, -, -, -, -, -, e0, e1, -⟩ := idx_facts t
  unfold iblk
  rw [View.read_apply]
  show V m c main_v3 _ = V m c main_v3 _
  congr 1
  funext a
  apply Fin.ext
  match a with
  | ⟨0, _⟩ => show win0_3.index t (0 : Fin 2) * 1 + 1 * 0 = 0; omega
  | ⟨1, _⟩ => show win0_3.index t (1 : Fin 2) * 1024 + 1 * q.val = 1024 * jb.val + q.val; have := jb.isLt; omega

theorem iblk4_apply (c : Dev nD) (t : Fin cfg0.N) (ib jb : Fin 8) (ht : t.val = 8 * ib.val + jb.val) (r : Fin 1024) :
    (iblk m c 4 t : Vec Ideal S1024x1 .i32) (ix2 r (0 : Fin 1)) = la m c (ix2 (at8 ib r) (0 : Fin 1)) := by
  obtain ⟨-, -, -, -, -, -, -, -, e0, e1, -⟩ := idx_facts t
  unfold iblk
  rw [View.read_apply]
  show V m c main_v4 _ = V m c main_v4 _
  congr 1
  funext a
  apply Fin.ext
  match a with
  | ⟨0, _⟩ => show win0_4.index t (0 : Fin 2) * 1024 + 1 * r.val = 1024 * ib.val + r.val; have := jb.isLt; omega
  | ⟨1, _⟩ => show win0_4.index t (1 : Fin 2) * 1 + 1 * 0 = 0; omega

theorem iblk5_apply (c : Dev nD) (t : Fin cfg0.N) (ib jb : Fin 8) (ht : t.val = 8 * ib.val + jb.val) (q : Fin 1024) :
    (iblk m c 5 t : Vec Ideal S1x1024 .i32) (ix2 (0 : Fin 1) q) = lb m c (ix2 (0 : Fin 1) (at8 jb q)) := by
  obtain ⟨-, -, -, -, -, -, -, -, -, -, e0, e1, -⟩ := idx_facts t
  unfold iblk
  rw [View.read_apply]
  show V m c main_v5 _ = V m c main_v5 _
  congr 1
  funext a
  apply Fin.ext
  match a with
  | ⟨0, _⟩ => show win0_5.index t (0 : Fin 2) * 1 + 1 * 0 = 0; omega
  | ⟨1, _⟩ => show win0_5.index t (1 : Fin 2) * 1024 + 1 * q.val = 1024 * jb.val + q.val; have := jb.isLt; omega

/-- The tile at point 8·i + j is rows 1024·i …, columns 1024·j … of the relation. -/
theorem tile_at (c : Dev nD) (t : Fin cfg0.N) (ib jb : Fin 8) (ht : t.val = 8 * ib.val + jb.val) (r q : Fin 1024) :
    tile (iblk m c 0 t) (iblk m c 1 t) (iblk m c 2 t) (iblk m c 3 t) r q = E m c (at8 ib r) (at8 jb q) := by
  unfold tile E
  simp only [iblk0_apply m c t ib jb ht, iblk1_apply m c t ib jb ht, iblk2_apply m c t ib jb ht, iblk3_apply m c t ib jb ht]

/-- The label comparison at point 8·i + j is rows 1024·i …, columns 1024·j … of the whole comparison. -/
theorem same_at (c : Dev nD) (t : Fin cfg0.N) (ib jb : Fin 8) (ht : t.val = 8 * ib.val + jb.val) (r q : Fin 1024) :
    same (iblk m c 4 t) (iblk m c 5 t) r q = M m c (at8 ib r) (at8 jb q) := by
  unfold same M
  simp only [iblk4_apply m c t ib jb ht, iblk5_apply m c t ib jb ht]

/-- One point adds, to row r of the first running sum, the masked sum of the tile's row r. -/
theorem stepAt_fst (c : Dev nD) (t : Fin cfg0.N) (ib jb : Fin 8) (ht : t.val = 8 * ib.val + jb.val)
    (p : Vec Ideal S1024x1 .f32 × Vec Ideal S1024x1 .f32) (r : Fin 1024) :
    (stepAt m c t p).1 (ix2 r (0 : Fin 1))
      = p.1 (ix2 r (0 : Fin 1)) + ∑ q : Fin 1024, E m c (at8 ib r) (at8 jb q) * M m c (at8 ib r) (at8 jb q) := by
  have h := step_fst_apply (iblk m c 0 t) (iblk m c 1 t) (iblk m c 2 t) (iblk m c 3 t) (iblk m c 4 t) (iblk m c 5 t) p r
  simp only [tile_at m c t ib jb ht, same_at m c t ib jb ht] at h
  exact h

/-- One point adds, to row r of the second running sum, the sum of the tile's row r. -/
theorem stepAt_snd (c : Dev nD) (t : Fin cfg0.N) (ib jb : Fin 8) (ht : t.val = 8 * ib.val + jb.val)
    (p : Vec Ideal S1024x1 .f32 × Vec Ideal S1024x1 .f32) (r : Fin 1024) :
    (stepAt m c t p).2 (ix2 r (0 : Fin 1))
      = p.2 (ix2 r (0 : Fin 1)) + ∑ q : Fin 1024, E m c (at8 ib r) (at8 jb q) := by
  have h := step_snd_apply (iblk m c 0 t) (iblk m c 1 t) (iblk m c 2 t) (iblk m c 3 t) (iblk m c 4 t) (iblk m c 5 t) p r
  simp only [tile_at m c t ib jb ht] at h
  exact h

/-- The sum of `f` over column block `j` (zero past the last block). -/
def part (f : Fin 8192 → EReal) (j : ℕ) : EReal := if h : j < 8 then ∑ q : Fin 1024, f (at8 ⟨j, h⟩ q) else 0

theorem accAt_congr (c : Dev nD) {n n' : ℕ} (e : n = n') (h : n < cfg0.N) (h' : n' < cfg0.N) :
    accAt m c n h = accAt m c n' h' := by subst e; rfl

/-- After point 8·i + j the first running sum holds, at row r, the masked sums over column blocks 0 … j. -/
theorem acc_fst (c : Dev nD) (ib : Fin 8) (r : Fin 1024) : ∀ (j : ℕ) (hj : j < 8) (h : 8 * ib.val + j < cfg0.N),
    (accAt m c (8 * ib.val + j) h).1 (ix2 r (0 : Fin 1))
      = ∑ j' ∈ Finset.range (j + 1), part (fun col => E m c (at8 ib r) col * M m c (at8 ib r) col) j'
  | 0, hj, h => by
    have e : accAt m c (8 * ib.val + 0) h = stepAt m c ⟨8 * ib.val + 0, h⟩ zero2 :=
      accAt_reset m c ⟨8 * ib.val + 0, h⟩ (by show (8 * ib.val + 0) % 8 = 0; omega)
    rw [e, stepAt_fst m c ⟨8 * ib.val + 0, h⟩ ib ⟨0, hj⟩ rfl, zero2_fst_apply, zero_add, Finset.sum_range_one, part, dif_pos hj]
  | j + 1, hj, h => by
    have hN := N64
    have e : accAt m c (8 * ib.val + (j + 1)) h = stepAt m c ⟨8 * ib.val + (j + 1), h⟩ (accAt m c (8 * ib.val + (j + 1) - 1) (by omega)) :=
      accAt_carry m c ⟨8 * ib.val + (j + 1), h⟩ (by show ¬ (8 * ib.val + (j + 1)) % 8 = 0; omega)
    rw [e, stepAt_fst m c ⟨8 * ib.val + (j + 1), h⟩ ib ⟨j + 1, hj⟩ rfl,
      accAt_congr m c (show 8 * ib.val + (j + 1) - 1 = 8 * ib.val + j by omega) _ (by omega),
      acc_fst c ib r j (by omega) (by omega), Finset.sum_range_succ _ (j + 1)]
    congr 1
    rw [part, dif_pos hj]

/-- After point 8·i + j the second running sum holds, at row r, the sums over column blocks 0 … j. -/
theorem acc_snd (c : Dev nD) (ib : Fin 8) (r : Fin 1024) : ∀ (j : ℕ) (hj : j < 8) (h : 8 * ib.val + j < cfg0.N),
    (accAt m c (8 * ib.val + j) h).2 (ix2 r (0 : Fin 1))
      = ∑ j' ∈ Finset.range (j + 1), part (fun col => E m c (at8 ib r) col) j'
  | 0, hj, h => by
    have e : accAt m c (8 * ib.val + 0) h = stepAt m c ⟨8 * ib.val + 0, h⟩ zero2 :=
      accAt_reset m c ⟨8 * ib.val + 0, h⟩ (by show (8 * ib.val + 0) % 8 = 0; omega)
    rw [e, stepAt_snd m c ⟨8 * ib.val + 0, h⟩ ib ⟨0, hj⟩ rfl, zero2_snd_apply, zero_add, Finset.sum_range_one, part, dif_pos hj]
  | j + 1, hj, h => by
    have hN := N64
    have e : accAt m c (8 * ib.val + (j + 1)) h = stepAt m c ⟨8 * ib.val + (j + 1), h⟩ (accAt m c (8 * ib.val + (j + 1) - 1) (by omega)) :=
      accAt_carry m c ⟨8 * ib.val + (j + 1), h⟩ (by show ¬ (8 * ib.val + (j + 1)) % 8 = 0; omega)
    rw [e, stepAt_snd m c ⟨8 * ib.val + (j + 1), h⟩ ib ⟨j + 1, hj⟩ rfl,
      accAt_congr m c (show 8 * ib.val + (j + 1) - 1 = 8 * ib.val + j by omega) _ (by omega),
      acc_snd c ib r j (by omega) (by omega), Finset.sum_range_succ _ (j + 1)]
    congr 1
    rw [part, dif_pos hj]

/-- A column of the whole array is column q of block j, and conversely. -/
def colEquiv : Fin 8 × Fin 1024 ≃ Fin 8192 where
  toFun p := at8 p.1 p.2
  invFun col := (⟨col.val / 1024, by have := col.isLt; omega⟩, ⟨col.val % 1024, by omega⟩)
  left_inv p := by
    obtain ⟨a, b⟩ := p
    have := a.isLt
    have := b.isLt
    apply Prod.ext <;> apply Fin.ext <;> simp only [at8] <;> omega
  right_inv col := by
    apply Fin.ext
    simp only [at8]
    omega

/-- The sums over the eight column blocks make the sum over all columns. -/
theorem sum_parts (f : Fin 8192 → EReal) : ∑ j' ∈ Finset.range (7 + 1), part f j' = ∑ col : Fin 8192, f col := by
  rw [← Fin.sum_univ_eq_sum_range (fun j' => part f j') (7 + 1), ← Equiv.sum_comp colEquiv f, Fintype.sum_prod_type]
  refine Finset.sum_congr rfl fun jb _ => ?_
  rw [part, dif_pos jb.isLt]
  rfl

/-- What the two result arrays end holding: at each row, the masked sum and the sum over all columns. -/
def G6 (c : Dev nD) : Vec Ideal S8192x1 .f32 := fun i => ∑ col : Fin 8192, E m c (i 0) col * M m c (i 0) col
def G7 (c : Dev nD) : Vec Ideal S8192x1 .f32 := fun i => ∑ col : Fin 8192, E m c (i 0) col

/-- Point `t`'s block of result one, as indices of the array: rows 1024·(index) … on axis 0, the one column on axis 1. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v6_0).slice (win0_6.rect t)).set ↔ _
  rw [View.set_slice_whole, Rect.mem_set_unit]
  exact Iff.rfl

/-- What a point that writes the block back writes is its block of `G6`: the running sum after the last column block. -/
theorem flushed6_eq (c : Dev nD) (t : Fin cfg0.N) (hf : (cfg0.win 6).flush t = true) :
    (dats (F := Ideal) m 0 c).flushed 6 t = ((cfg0.win 6).blk t).view.read (Elt Ideal) (G6 m c) := by
  have h7 : t.val % 8 = 7 := (flush0_6 t).mp hf
  have hN := N64
  have hlt := t.isLt
  have hi : t.val / 8 < 8 := by omega
  obtain ⟨-, -, -, -, -, -, -, -, -, -, -, -, e0, e1, -⟩ := idx_facts t
  show (cfg0.win 6).cut (grid0.coords t) ((dats (F := Ideal) m 0 c).after 6 t) = _
  rw [after0_6]
  funext y
  obtain ⟨r, z, rfl⟩ : ∃ (r : Fin 1024) (z : Fin 1), y = ix2 r z := ⟨y 0, y 1, eq_ix2 (n0 := 1024) (n1 := 1) y⟩
  obtain rfl : z = 0 := Subsingleton.elim _ _
  rw [View.read_apply]
  have hrow : ((cfg0.win 6).blk t).view.emb (ix2 r (0 : Fin 1)) 0 = at8 ⟨t.val / 8, hi⟩ r := by
    apply Fin.ext
    show win0_6.index t (0 : Fin 2) * 1024 + 1 * r.val = 1024 * (t.val / 8) + r.val
    omega
  show (accAt m c t.val t.isLt).1 (ix2 r (0 : Fin 1)) = G6 m c (((cfg0.win 6).blk t).view.emb (ix2 r (0 : Fin 1)))
  rw [accAt_congr m c (show t.val = 8 * (⟨t.val / 8, hi⟩ : Fin 8).val + 7 by show t.val = 8 * (t.val / 8) + 7; omega) _ (by show 8 * (t.val / 8) + 7 < cfg0.N; omega),
    acc_fst m c ⟨t.val / 8, hi⟩ r 7 (by omega) (by show 8 * (t.val / 8) + 7 < cfg0.N; omega), sum_parts]
  unfold G6
  rw [hrow]

/-- Every row of the array is in the block written back at the last column block of its row block. -/
theorem cover6 (i : S8192x1.Idx) : ∃ t : Fin cfg0.N, (cfg0.win 6).flush t = true ∧ i ∈ ((cfg0.win 6).blk t).view.set := by
  have hN := N64
  have h0 : (i 0).val < 8192 := (i 0).isLt
  have h1 : (i 1).val < 1 := (i 1).isLt
  obtain ⟨t, htv⟩ : ∃ t : Fin cfg0.N, t.val = 8 * ((i 0).val / 1024) + 7 := ⟨⟨8 * ((i 0).val / 1024) + 7, by omega⟩, rfl⟩
  obtain ⟨-, -, -, -, -, -, -, -, -, -, -, -, e0, e1, -⟩ := idx_facts t
  refine ⟨t, (flush0_6 t).mpr (by omega), ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

/-- So the array ends holding `G6`. -/
theorem final6 (c : Dev nD) : (dats (F := Ideal) m 0 c).arrAt 6 cfg0.N = G6 m c :=
  (dats (F := Ideal) m 0 c).arrAt_eq_of_cover 6 (G6 m c) (flushed6_eq m c) cover6

/-- Point `t`'s block of result two, as indices of the array: rows 1024·(index) … on axis 0, the one column on axis 1. -/
theorem mem_blk7 (t : Fin cfg0.N) (i : S8192x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v6_1).slice (win0_7.rect t)).set ↔ _
  rw [View.set_slice_whole, Rect.mem_set_unit]
  exact Iff.rfl

/-- What a point that writes the block back writes is its block of `G7`: the running sum after the last column block. -/
theorem flushed7_eq (c : Dev nD) (t : Fin cfg0.N) (hf : (cfg0.win 7).flush t = true) :
    (dats (F := Ideal) m 0 c).flushed 7 t = ((cfg0.win 7).blk t).view.read (Elt Ideal) (G7 m c) := by
  have h7 : t.val % 8 = 7 := (flush0_7 t).mp hf
  have hN := N64
  have hlt := t.isLt
  have hi : t.val / 8 < 8 := by omega
  obtain ⟨-, -, -, -, -, -, -, -, -, -, -, -, -, -, e0, e1⟩ := idx_facts t
  show (cfg0.win 7).cut (grid0.coords t) ((dats (F := Ideal) m 0 c).after 7 t) = _
  rw [after0_7]
  funext y
  obtain ⟨r, z, rfl⟩ : ∃ (r : Fin 1024) (z : Fin 1), y = ix2 r z := ⟨y 0, y 1, eq_ix2 (n0 := 1024) (n1 := 1) y⟩
  obtain rfl : z = 0 := Subsingleton.elim _ _
  rw [View.read_apply]
  have hrow : ((cfg0.win 7).blk t).view.emb (ix2 r (0 : Fin 1)) 0 = at8 ⟨t.val / 8, hi⟩ r := by
    apply Fin.ext
    show win0_7.index t (0 : Fin 2) * 1024 + 1 * r.val = 1024 * (t.val / 8) + r.val
    omega
  show (accAt m c t.val t.isLt).2 (ix2 r (0 : Fin 1)) = G7 m c (((cfg0.win 7).blk t).view.emb (ix2 r (0 : Fin 1)))
  rw [accAt_congr m c (show t.val = 8 * (⟨t.val / 8, hi⟩ : Fin 8).val + 7 by show t.val = 8 * (t.val / 8) + 7; omega) _ (by show 8 * (t.val / 8) + 7 < cfg0.N; omega),
    acc_snd m c ⟨t.val / 8, hi⟩ r 7 (by omega) (by show 8 * (t.val / 8) + 7 < cfg0.N; omega), sum_parts]
  unfold G7
  rw [hrow]

/-- Every row of the array is in the block written back at the last column block of its row block. -/
theorem cover7 (i : S8192x1.Idx) : ∃ t : Fin cfg0.N, (cfg0.win 7).flush t = true ∧ i ∈ ((cfg0.win 7).blk t).view.set := by
  have hN := N64
  have h0 : (i 0).val < 8192 := (i 0).isLt
  have h1 : (i 1).val < 1 := (i 1).isLt
  obtain ⟨t, htv⟩ : ∃ t : Fin cfg0.N, t.val = 8 * ((i 0).val / 1024) + 7 := ⟨⟨8 * ((i 0).val / 1024) + 7, by omega⟩, rfl⟩
  obtain ⟨-, -, -, -, -, -, -, -, -, -, -, -, -, -, e0, e1⟩ := idx_facts t
  refine ⟨t, (flush0_7 t).mpr (by omega), ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1 ≤ (i 1).val ∧ (i 1).val < win0_7.index t (1 : Fin 2) * 1 + 1; omega

/-- So the array ends holding `G7`. -/
theorem final7 (c : Dev nD) : (dats (F := Ideal) m 0 c).arrAt 7 cfg0.N = G7 m c :=
  (dats (F := Ideal) m 0 c).arrAt_eq_of_cover 7 (G7 m c) (flushed7_eq m c) cover7

/-- Row `row` of the first result: the sum over all columns, where the labels agree, of the relation's entries. -/
theorem arrAt6 (c : Dev nD) (row : Fin 8192) :
    ((dats (F := Ideal) m 0 c).arrAt 6 cfg0.N : S8192x1.Idx → EReal) (ix2 row (0 : Fin 1)) = ∑ col : Fin 8192, E m c row col * M m c row col :=
  congrFun (final6 m c) (ix2 row (0 : Fin 1))

/-- Row `row` of the second result: the sum over all columns of the relation's entries. -/
theorem arrAt7 (c : Dev nD) (row : Fin 8192) :
    ((dats (F := Ideal) m 0 c).arrAt 7 cfg0.N : S8192x1.Idx → EReal) (ix2 row (0 : Fin 1)) = ∑ col : Fin 8192, E m c row col :=
  congrFun (final7 m c) (ix2 row (0 : Fin 1))

end Cert.KernelIdeal.Hand

end
-- ==== Proof.KI.ValHost.lean ====
/-
  The host operations around the region, read index by index on the extended reals: the row norms and the labels
  as the region receives them, and the loss as the last operations compute it from the region's two results.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic
import proofs.«166931_j7370163880494_1_alg».proof.Proof.KI.Data
import proofs.«166931_j7370163880494_1_alg».proof.Proof.KI.Kept
import proofs.«166931_j7370163880494_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-! ## The operations read at an index, over any operand -/

/-- The row sums of the squares, from the zero constant: the squared norm of the row. -/
theorem rowsum_apply (x : (⟨S8192x768, .f32⟩ : BufTy).Contents (Elt Ideal)) (row : Fin 8192) :
    (Host.reduceAdd (F := Ideal) (mulf x x) (constant S_ .f32 0x00000000#32) reducesTo_S8192x768_S8192_d1 h_S_) (ix1 row)
      = Cert.Spec.nrm x row := by
  simp only [Host.reduceAdd, Ideal.hostReduceAdd_def]
  rw [Ideal.hostReduceAdd_single reducesTo_S8192x768_S8192_d1 (by decide)]
  rw [constant_apply, Ideal.ofBits_zero_f32, zero_add]
  unfold Cert.Spec.nrm
  refine Finset.sum_congr rfl fun k _ => ?_
  rw [mulf_apply]
  exact congrArg (fun j => x j * x j) (funext fun a => Fin.ext (by match a with | ⟨0, _⟩ => rfl | ⟨1, _⟩ => rfl))

/-- A vector of 8192 entries made a column: the entry of the row. -/
theorem col_of_vec_apply {α : Type} (y : S8192.Idx → α) (row : Fin 8192) :
    broadcastInDim S8192x1 ![0] bcast_S8192_S8192x1_0 y (ix2 row (0 : Fin 1)) = y (ix1 row) :=
  broadcastInDim_apply _ bcast_S8192_S8192x1_0 y (ix2 row (0 : Fin 1)) (ix1 row) (fun a => match a with
    | ⟨0, _⟩ => by show row.val = if (8192 : Nat) = 1 then 0 else row.val; rw [if_neg (by decide)])

/-- A column of 8192 entries reshaped to a row: the entry of the column. -/
theorem row_of_col_apply {α : Type} (y : S8192x1.Idx → α) (col : Fin 8192) :
    shapeCast S1x8192 y shapeCasts_S8192x1_S1x8192 (ix2 (0 : Fin 1) col) = y (ix2 col (0 : Fin 1)) :=
  shapeCast_apply y shapeCasts_S8192x1_S1x8192 _ _ (by
    rw [Shape.rowMajor_val_two, Shape.rowMajor_val_two]
    show col.val * 1 + 0 = 0 * 8192 + col.val
    omega)

/-- A vector of 8192 entries reshaped to a column. -/
theorem col_of_vec_cast_apply {α : Type} (y : S8192.Idx → α) (row : Fin 8192) :
    shapeCast S8192x1 y shapeCasts_S8192_S8192x1 (ix2 row (0 : Fin 1)) = y (ix1 row) :=
  shapeCast_apply y shapeCasts_S8192_S8192x1 _ _ (by
    rw [Shape.rowMajor_val_two, Shape.rowMajor_val_one]
    show row.val = row.val * 1 + 0
    omega)

/-- A vector of 8192 entries reshaped to a row. -/
theorem row_of_vec_cast_apply {α : Type} (y : S8192.Idx → α) (col : Fin 8192) :
    shapeCast S1x8192 y shapeCasts_S8192_S1x8192 (ix2 (0 : Fin 1) col) = y (ix1 col) :=
  shapeCast_apply y shapeCasts_S8192_S1x8192 _ _ (by
    rw [Shape.rowMajor_val_two, Shape.rowMajor_val_one]
    show col.val = 0 * 8192 + col.val
    omega)

/-! ## The buffers the region receives -/

theorem V_arg0 (c : Dev nD) : V m c main_arg0 = m ((c : Thread nD τ).loc main_arg0) :=
  StableHlo.after_of_forall_not_mem (b := Proc.devRef .tc main_arg0) hostOps0 (V₀ m c) (not_written0 main_arg0 (by decide))

theorem V_arg1 (c : Dev nD) : V m c main_arg1 = m ((c : Thread nD τ).loc main_arg1) :=
  StableHlo.after_of_forall_not_mem (b := Proc.devRef .tc main_arg1) hostOps0 (V₀ m c) (not_written0 main_arg1 (by decide))

theorem V_v2_eq (c : Dev nD) : V m c main_v2
    = broadcastInDim S8192x1 ![0] bcast_S8192_S8192x1_0
        (Host.reduceAdd (F := Ideal) (mulf (m ((c : Thread nD τ).loc main_arg0)) (m ((c : Thread nD τ).loc main_arg0)))
          (constant S_ .f32 0x00000000#32) reducesTo_S8192x768_S8192_d1 h_S_) := by
  dsimp only [V, V1]; after_results

theorem V_v2 (c : Dev nD) (row : Fin 8192) :
    V m c main_v2 (ix2 row (0 : Fin 1)) = Cert.Spec.nrm (m ((c : Thread nD τ).loc main_arg0)) row := by
  rw [V_v2_eq, col_of_vec_apply, rowsum_apply]

theorem V_v3_eq (c : Dev nD) : V m c main_v3 = shapeCast S1x8192 (V m c main_v2) shapeCasts_S8192x1_S1x8192 := by
  dsimp only [V, V1]; after_results; rfl

theorem V_v3 (c : Dev nD) (col : Fin 8192) :
    V m c main_v3 (ix2 (0 : Fin 1) col) = Cert.Spec.nrm (m ((c : Thread nD τ).loc main_arg0)) col := by
  rw [V_v3_eq, row_of_col_apply, V_v2]

theorem V_v4_eq (c : Dev nD) : V m c main_v4 = shapeCast S8192x1 (m ((c : Thread nD τ).loc main_arg1)) shapeCasts_S8192_S8192x1 := by
  dsimp only [V, V1]; after_results; rfl

theorem V_v4 (c : Dev nD) (row : Fin 8192) :
    V m c main_v4 (ix2 row (0 : Fin 1)) = m ((c : Thread nD τ).loc main_arg1) (ix1 row) := by
  rw [V_v4_eq, col_of_vec_cast_apply]

theorem V_v5_eq (c : Dev nD) : V m c main_v5 = shapeCast S1x8192 (m ((c : Thread nD τ).loc main_arg1)) shapeCasts_S8192_S1x8192 := by
  dsimp only [V, V1]; after_results; rfl

theorem V_v5 (c : Dev nD) (col : Fin 8192) :
    V m c main_v5 (ix2 (0 : Fin 1) col) = m ((c : Thread nD τ).loc main_arg1) (ix1 col) := by
  rw [V_v5_eq, row_of_vec_cast_apply]

/-! ## The loss from the region's two results -/

/-- The sum of a column's 8192 entries, from the zero constant. -/
theorem total_apply (y : (⟨S8192x1, .f32⟩ : BufTy).Contents (Elt Ideal)) (j : S_.Idx) :
    (Host.reduceAdd (F := Ideal) y (constant S_ .f32 0x00000000#32) reducesTo_S8192x1_S_d0_1 h_S_) j
      = ∑ i : Fin 8192, y (ix2 i (0 : Fin 1)) := by
  simp only [Host.reduceAdd, Ideal.hostReduceAdd_def]
  rw [Ideal.hostReduceAdd_total reducesTo_S8192x1_S_d0_1 (fun b => b.elim0)]
  rw [constant_apply, Ideal.ofBits_zero_f32, zero_add, sum_idx2]
  exact Finset.sum_congr rfl fun i _ => Fin.sum_univ_one _

/-- The last ten operations on any two columns: the mean of the negated logarithms of the quotients. -/
theorem loss_apply (a b : (⟨S8192x1, .f32⟩ : BufTy).Contents (Elt Ideal)) (j : S_.Idx) :
    (Host.divf (F := Ideal)
      (Host.reduceAdd
        (Host.negf (Host.log (Host.divf a (addf b (broadcastInDim S8192x1 ![] bcast_S_S8192x1 (constant S_ .f32 0x322BCC77#32))))))
        (constant S_ .f32 0x00000000#32) reducesTo_S8192x1_S_d0_1 h_S_)
      (constant S_ .f32 0x46000000#32)) j
      = Ideal.div (∑ i : Fin 8192, -(Ideal.log (Ideal.div (a (ix2 i (0 : Fin 1))) (b (ix2 i (0 : Fin 1)) + Cert.Spec.eps)))) Cert.Spec.cnt := by
  unfold Cert.Spec.cnt Cert.Spec.eps
  show Ideal.div ((Host.reduceAdd (F := Ideal) _ (constant S_ .f32 0x00000000#32) reducesTo_S8192x1_S_d0_1 h_S_) j) (Ideal.ofBits .f32 0x46000000#32) = _
  rw [total_apply]
  rfl

/-- The result of the whole program on core `c`: the loss of the region's two results. -/
theorem V3_v13 (c : Dev nD) : V3 m c (Proc.devRef .tc main_v13)
    = fun _ => Ideal.div (∑ i : Fin 8192, -(Ideal.log (Ideal.div
        ((dats (F := Ideal) m 0 c).arrAt 6 cfg0.N (ix2 i (0 : Fin 1)))
        (HAdd.hAdd (α := EReal) (β := EReal) (γ := EReal) ((dats (F := Ideal) m 0 c).arrAt 7 cfg0.N (ix2 i (0 : Fin 1))) Cert.Spec.eps)))) Cert.Spec.cnt := by
  show StableHlo.after hostOps1 (V2 m c) (Proc.devRef .tc main_v13) = _
  after_results
  rw [V2_out6, V2_out7]
  funext j
  exact loss_apply _ _ j

/-- When the two columns hold the masked and the plain row sums of the fuzzy relation, that mean is the loss. -/
theorem loss_of_cols (a b : S8192x1.Idx → EReal) (x : Cert.Spec.Mat) (l : Cert.Spec.Lab)
    (ha : ∀ i : Fin 8192, a (ix2 i (0 : Fin 1)) = Cert.Spec.pos x l i)
    (hb : ∀ i : Fin 8192, b (ix2 i (0 : Fin 1)) = Cert.Spec.tot x i) :
    Ideal.div (∑ i : Fin 8192, -(Ideal.log (Ideal.div (a (ix2 i (0 : Fin 1))) (b (ix2 i (0 : Fin 1)) + Cert.Spec.eps)))) Cert.Spec.cnt
      = Cert.Spec.loss x l := by
  unfold Cert.Spec.loss
  refine congrArg (fun s => Ideal.div s Cert.Spec.cnt) (Finset.sum_congr rfl fun i _ => ?_)
  rw [ha i, hb i]

end Cert.KernelIdeal.Hand

end
-- ==== Proof.KI.Value.lean ====
/-
  The kernel's result, on the extended reals: the loss of the specification, of the matrix and the labels as launched.
  The two result columns hold the masked and the plain row sums of the fuzzy relation; the last host operations take
  the mean of the negated logarithms of their quotients.
-/
import proofs.«166931_j7370163880494_1_alg».proof.Proof.Gen.KernelIdeal.Launch
import proofs.«166931_j7370163880494_1_alg».proof.Proof.Gen.KernelIdeal.Skeleton
import proofs.«166931_j7370163880494_1_alg».proof.Proof.Gen.KernelIdeal.Points
import Idealize.ShloMosaic.Lib.Pipeline.FrameBody
import Idealize.ShloMosaic.Lib.Pipeline.FrameSuffix
import Idealize.ShloMosaic.Lib.Tactic
import proofs.«166931_j7370163880494_1_alg».proof.Proof.KI.Data
import proofs.«166931_j7370163880494_1_alg».proof.Proof.Spec
import proofs.«166931_j7370163880494_1_alg».proof.Proof.KI.ValAcc
import proofs.«166931_j7370163880494_1_alg».proof.Proof.KI.ValHost
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-- The entry of the tile of exponentials is the fuzzy relation of the specification. -/
theorem E_eq (c : Dev nD) (row col : Fin 8192) :
    E m c row col = Cert.Spec.fz (m ((c : Thread nD τ).loc main_arg0)) row col := by
  unfold E Cert.Spec.fz Cert.Spec.gram
  have h2 : na m c (ix2 row (0 : Fin 1)) = Cert.Spec.nrm (m ((c : Thread nD τ).loc main_arg0)) row := V_v2 m c row
  have h3 : nb m c (ix2 (0 : Fin 1) col) = Cert.Spec.nrm (m ((c : Thread nD τ).loc main_arg0)) col := V_v3 m c col
  have h0 : xs m c = m ((c : Thread nD τ).loc main_arg0) := V_arg0 m c
  refine congrArg (fun t => Ideal.exp (t * Cert.Spec.mhalf)) ?_
  refine congrArg₂ (· - ·) (congrArg₂ (· + ·) h2 h3) (congrArg (Cert.Spec.two * ·) (Finset.sum_congr rfl fun k _ => ?_))
  exact congrArg₂ (· * ·) (congrFun h0 (ix2 row k)) (congrFun h0 (ix2 col k))

/-- The label mask is the specification's. -/
theorem M_eq (c : Dev nD) (row col : Fin 8192) :
    M m c row col = Cert.Spec.msk (m ((c : Thread nD τ).loc main_arg1)) row col := by
  unfold M Cert.Spec.msk
  have h4 : la m c (ix2 row (0 : Fin 1)) = m ((c : Thread nD τ).loc main_arg1) (ix1 row) := V_v4 m c row
  have h5 : lb m c (ix2 (0 : Fin 1) col) = m ((c : Thread nD τ).loc main_arg1) (ix1 col) := V_v5 m c col
  by_cases h : m ((c : Thread nD τ).loc main_arg1) (ix1 row) = m ((c : Thread nD τ).loc main_arg1) (ix1 col)
  · rw [if_pos h, if_pos (h4.trans (h.trans h5.symm))]
  · rw [if_neg h, if_neg (fun h' => h (h4.symm.trans (h'.trans h5)))]

/-- The first result column holds the masked row sums of the specification … -/
theorem arrAt6_pos (c : Dev nD) (row : Fin 8192) :
    ((dats (F := Ideal) m 0 c).arrAt 6 cfg0.N : S8192x1.Idx → EReal) (ix2 row (0 : Fin 1))
      = Cert.Spec.pos (m ((c : Thread nD τ).loc main_arg0)) (m ((c : Thread nD τ).loc main_arg1)) row := by
  have h : (∑ col : Fin 8192, E m c row col * M m c row col)
      = Cert.Spec.pos (m ((c : Thread nD τ).loc main_arg0)) (m ((c : Thread nD τ).loc main_arg1)) row := by
    unfold Cert.Spec.pos
    exact Finset.sum_congr rfl fun col _ => congrArg₂ (· * ·) (E_eq m c row col) (M_eq m c row col)
  exact (arrAt6 m c row).trans h

/-- … and the second the plain row sums. -/
theorem arrAt7_tot (c : Dev nD) (row : Fin 8192) :
    ((dats (F := Ideal) m 0 c).arrAt 7 cfg0.N : S8192x1.Idx → EReal) (ix2 row (0 : Fin 1))
      = Cert.Spec.tot (m ((c : Thread nD τ).loc main_arg0)) row := by
  have h : (∑ col : Fin 8192, E m c row col) = Cert.Spec.tot (m ((c : Thread nD τ).loc main_arg0)) row := by
    unfold Cert.Spec.tot
    exact Finset.sum_congr rfl fun col _ => E_eq m c row col
  exact (arrAt7 m c row).trans h

/-- The kernel's result is the loss of the specification, of the matrix and the labels as launched. -/
theorem kernel_value (c : Dev nD) : V3 m c (Proc.devRef .tc main_v13) = fun _ => Cert.Spec.loss (m ((c : Thread nD τ).loc main_arg0)) (m ((c : Thread nD τ).loc main_arg1)) := by
  refine (V3_v13 m c).trans (funext fun _ => ?_)
  unfold Cert.Spec.loss
  refine congrArg (fun s => Ideal.div s Cert.Spec.cnt) (Finset.sum_congr rfl fun i _ => ?_)
  refine congrArg (fun t => -(Ideal.log t)) ?_
  exact congrArg₂ Ideal.div (arrAt6_pos m c i) (congrArg (· + Cert.Spec.eps) (arrAt7_tot m c i))

end Cert.KernelIdeal.Hand

end
-- ==== Proof.RefValue.lean ====
import proofs.«166931_j7370163880494_1_alg».proof.Proof.Gen.ReferenceIdeal.Run
import proofs.«166931_j7370163880494_1_alg».proof.Proof.Gen.ReferenceIdeal.Read
import proofs.«166931_j7370163880494_1_alg».proof.Proof.Spec
import Idealize.ShloMosaic.PureOps.Ideal.Laws
import Idealize.ShloMosaic.Lib.ValueIdx

/-
  The reference program's result, read index by index, is the specification's loss.

  Each intermediate array of the reference is identified, at an index given by its coordinates, with the
  specification's quantity of the same name: the row norms, the Gram matrix, the fuzzy relation, the label mask,
  the two row sums, and last the mean of the negated logarithms. The only algebraic step is that dividing the
  negated distance by 2 is multiplying the distance by −½, which holds for every extended real.
-/

noncomputable section

namespace Cert.RefValue

open Cert.ReferenceIdeal Cert.ReferenceIdeal.Gen Cert.ReferenceIdeal.Read
open Idealize.ShloMosaic Idealize.ShloMosaic.ValueIdx

/-- The matrix argument and the label argument, as the reference program holds them. -/
abbrev X : Type := (⟨S8192x768, .f32⟩ : BufTy).Contents (Elt Ideal)
abbrev L : Type := (⟨S8192, .i32⟩ : BufTy).Contents (Elt Ideal)

/-! ## The two literals of the one algebraic law -/

/-- The word `0x40000000` denotes the real 2. -/
theorem two_eq : Cert.Spec.two = ((2 : ℝ) : EReal) := by
  unfold Cert.Spec.two
  simp [Ideal.ofBits, Ideal.ieee, -EReal.coe_mul]; norm_num

/-- The word `0xBF000000` denotes the real −½. -/
theorem mhalf_eq : Cert.Spec.mhalf = ((-(1 / 2) : ℝ) : EReal) := by
  unfold Cert.Spec.mhalf
  simp [Ideal.ofBits, Ideal.ieee, -EReal.coe_mul]; norm_num

/-- Dividing the negation by 2 is multiplying by −½, at the infinities too. -/
theorem div_neg_two (d : EReal) : Ideal.div (-d) Cert.Spec.two = d * Cert.Spec.mhalf := by
  rw [two_eq, mhalf_eq, Ideal.div_coe (by norm_num), EReal.coe_neg, mul_neg, neg_mul]

/-! ## A rank-1 index set is its coordinate range -/

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The mask word -/

/-- The unsigned value of the one-bit equality of two words is 1 when they are equal and 0 otherwise. -/
theorem msk_word (a b : BitVec 32) :
    FloatOps.uitofp (F := Ideal) .f32 (IntOp.cmpi .eq a b) = if a = b then (1 : EReal) else 0 := by
  by_cases h : a = b
  · rw [if_pos h]; subst h
    show (((BitVec.ofBool (a == a)).toNat : ℝ) : EReal) = 1
    simp
  · rw [if_neg h]
    show (((BitVec.ofBool (a == b)).toNat : ℝ) : EReal) = 0
    have hb : (a == b) = false := by simpa using h
    rw [hb]; simp

/-! ## The row norms -/

theorem idx_v1 (i : Fin 8192) (k : Fin 768) : idx_main_v1 (ix1 i) k = ix2 i k :=
  funext fun a => Fin.ext (by match a with | ⟨0, _⟩ => rfl | ⟨1, _⟩ => rfl)

theorem v1_at (x0 : X) (i : Fin 8192) : val_main_v1 (F := Ideal) x0 (ix1 i) = Cert.Spec.nrm x0 i := by
  rw [val_main_v1_apply, val_main_cst_apply, Ideal.ofBits_def, Ideal.ofBits_zero_f32, zero_add]
  unfold Cert.Spec.nrm
  refine Finset.sum_congr rfl fun k _ => ?_
  rw [val_main_v0_apply, idx_v1]
  rfl

theorem idx_v4 (p q : Fin 8192) : idx_main_v2 (idx_main_v4 (ix2 p q)) = ix1 p :=
  funext fun a => Fin.ext (by match a with | ⟨0, _⟩ => rfl)

theorem v4_at (x0 : X) (p q : Fin 8192) : val_main_v4 (F := Ideal) x0 (ix2 p q) = Cert.Spec.nrm x0 p := by
  rw [val_main_v4_apply, val_main_v2_apply, idx_v4, v1_at]

theorem idx_v5 (p q : Fin 8192) : idx_main_v2 (idx_main_v3 (idx_main_v5 (ix2 p q))) = ix1 q :=
  funext fun a => Fin.ext (by match a with | ⟨0, _⟩ => rfl)

theorem v5_at (x0 : X) (p q : Fin 8192) : val_main_v5 (F := Ideal) x0 (ix2 p q) = Cert.Spec.nrm x0 q := by
  rw [val_main_v5_apply, val_main_v3_apply, val_main_v2_apply, idx_v5, v1_at]

/-! ## The Gram matrix -/

theorem lidx_v8 (p q : Fin 8192) (k : Fin 768) : lidx_main_v8 (ix2 p q) k = ix2 p k :=
  funext fun a => Fin.ext (by match a with | ⟨0, _⟩ => rfl | ⟨1, _⟩ => rfl)

theorem ridx_v8 (p q : Fin 8192) (k : Fin 768) : idx_main_v7 (ridx_main_v8 (ix2 p q) k) = ix2 q k :=
  funext fun a => Fin.ext (by match a with | ⟨0, _⟩ => rfl | ⟨1, _⟩ => rfl)

theorem v8_at (x0 : X) (p q : Fin 8192) : val_main_v8 (F := Ideal) x0 (ix2 p q) = Cert.Spec.gram x0 p q := by
  rw [val_main_v8_apply]
  unfold Cert.Spec.gram
  refine Finset.sum_congr rfl fun k _ => ?_
  rw [val_main_v7_apply, lidx_v8, ridx_v8]

/-! ## The distance and the fuzzy relation -/

theorem v9_at (i : S8192x8192.Idx) : val_main_v9 (F := Ideal) i = Cert.Spec.two := by
  rw [val_main_v9_apply, val_main_cst_0_apply]; rfl

theorem v13_at (i : S8192x8192.Idx) : val_main_v13 (F := Ideal) i = Cert.Spec.two := by
  rw [val_main_v13_apply, val_main_cst_1_apply]; rfl

theorem v11_at (x0 : X) (p q : Fin 8192) :
    val_main_v11 (F := Ideal) x0 (ix2 p q)
      = (Cert.Spec.nrm x0 p + Cert.Spec.nrm x0 q) - Cert.Spec.two * Cert.Spec.gram x0 p q := by
  rw [val_main_v11_apply, val_main_v6_apply, val_main_v10_apply, v4_at, v5_at, v8_at, v9_at]
  rfl

theorem v15_at (x0 : X) (p q : Fin 8192) : val_main_v15 (F := Ideal) x0 (ix2 p q) = Cert.Spec.fz x0 p q := by
  rw [val_main_v15_apply, val_main_v14_apply, val_main_v12_apply, v11_at, v13_at]
  show Ideal.exp (Ideal.div (-((Cert.Spec.nrm x0 p + Cert.Spec.nrm x0 q) - Cert.Spec.two * Cert.Spec.gram x0 p q))
    Cert.Spec.two) = _
  rw [div_neg_two]
  rfl

/-! ## The mask -/

theorem idx_v18 (p q : Fin 8192) : idx_main_v16 (idx_main_v18 (ix2 p q)) = ix1 p :=
  funext fun a => Fin.ext (by match a with | ⟨0, _⟩ => rfl)

theorem idx_v19 (p q : Fin 8192) : idx_main_v17 (idx_main_v19 (ix2 p q)) = ix1 q :=
  funext fun a => Fin.ext (by match a with | ⟨0, _⟩ => rfl)

theorem v21_at (x1 : L) (p q : Fin 8192) : val_main_v21 (F := Ideal) x1 (ix2 p q) = Cert.Spec.msk x1 p q := by
  rw [val_main_v21_apply, val_main_v20_apply, val_main_v18_apply, val_main_v19_apply, val_main_v16_apply,
    val_main_v17_apply, idx_v18, idx_v19]
  exact msk_word _ _

/-! ## The two row sums -/

theorem idx_v23 (p k : Fin 8192) : idx_main_v23 (ix1 p) k = ix2 p k :=
  funext fun a => Fin.ext (by match a with | ⟨0, _⟩ => rfl | ⟨1, _⟩ => rfl)

theorem idx_v24 (p k : Fin 8192) : idx_main_v24 (ix1 p) k = ix2 p k :=
  funext fun a => Fin.ext (by match a with | ⟨0, _⟩ => rfl | ⟨1, _⟩ => rfl)

theorem v23_at (x0 : X) (x1 : L) (p : Fin 8192) :
    val_main_v23 (F := Ideal) x0 x1 (ix1 p) = Cert.Spec.pos x0 x1 p := by
  rw [val_main_v23_apply, val_main_cst_2_apply, Ideal.ofBits_def, Ideal.ofBits_zero_f32, zero_add]
  unfold Cert.Spec.pos
  refine Finset.sum_congr rfl fun k _ => ?_
  rw [val_main_v22_apply, idx_v23, v15_at, v21_at]
  rfl

theorem v24_at (x0 : X) (p : Fin 8192) : val_main_v24 (F := Ideal) x0 (ix1 p) = Cert.Spec.tot x0 p := by
  rw [val_main_v24_apply, val_main_cst_3_apply, Ideal.ofBits_def, Ideal.ofBits_zero_f32, zero_add]
  unfold Cert.Spec.tot
  refine Finset.sum_congr rfl fun k _ => ?_
  rw [idx_v24, v15_at]

/-! ## The negated logarithm of the ratio, and the mean -/

theorem v25_at (i : S8192.Idx) : val_main_v25 (F := Ideal) i = Cert.Spec.eps := by
  rw [val_main_v25_apply, val_main_cst_4_apply]; rfl

theorem v29_at (x0 : X) (x1 : L) (p : Fin 8192) :
    val_main_v29 (F := Ideal) x0 x1 (ix1 p)
      = -(Ideal.log (Ideal.div (Cert.Spec.pos x0 x1 p) (Cert.Spec.tot x0 p + Cert.Spec.eps))) := by
  rw [val_main_v29_apply, val_main_v28_apply, val_main_v27_apply, val_main_v26_apply, v23_at, v24_at, v25_at]
  rfl

theorem ref_value (x0 : (⟨Cert.ReferenceIdeal.S8192x768, .f32⟩ : BufTy).Contents (Elt Ideal))
    (x1 : (⟨Cert.ReferenceIdeal.S8192, .i32⟩ : BufTy).Contents (Elt Ideal)) :
    Cert.ReferenceIdeal.Read.val_main_v31 (F := Ideal) x0 x1 = fun _ => Cert.Spec.loss x0 x1 := by
  funext i
  rw [val_main_v31_apply, val_main_v30_apply, val_main_cst_5_apply, val_main_cst_6_apply, Ideal.ofBits_def,
    Ideal.ofBits_zero_f32, zero_add, sum_idx1]
  unfold Cert.Spec.loss
  show Ideal.div (∑ a : Fin 8192, val_main_v29 (F := Ideal) x0 x1 (ix1 a)) Cert.Spec.cnt = _
  refine congrArg (Ideal.div · Cert.Spec.cnt) (Finset.sum_congr rfl fun p _ => ?_)
  exact v29_at x0 x1 p

end Cert.RefValue

end
-- ==== Proof.lean ====
/-
  The certificate's claims, assembled.

  Both readings of the kernel program — word by word, and over the extended reals — run to a final memory in which every
  buffer that outlives the kernel holds what the program's lines leave there; the two argument arrays are among the
  buffers no line writes, so they end as they began.  Over the extended reals the result buffer holds the loss of the
  specification, a function of the two argument arrays alone.  The reference program's run ends with its result at a
  term that, read index by index, is the same loss of its own argument arrays.  From memories that agree on the
  arguments the two results are therefore one value.  The idealization rewrote no operation, so it preserves nothing
  beyond the program's own text.
-/
import proofs.«166931_j7370163880494_1_alg».proof.Defs
import proofs.«166931_j7370163880494_1_alg».proof.Proof.Gen.Kernel
import proofs.«166931_j7370163880494_1_alg».proof.Proof.Gen.KernelIdeal
import proofs.«166931_j7370163880494_1_alg».proof.Proof.Gen.ReferenceIdeal
import proofs.«166931_j7370163880494_1_alg».proof.Proof.Gen.Pre_finite_inputs
import proofs.«166931_j7370163880494_1_alg».proof.Proof.Gen.ReferenceIdeal.Run
import proofs.«166931_j7370163880494_1_alg».proof.Proof.Gen.ReferenceIdeal.Read
import proofs.«166931_j7370163880494_1_alg».proof.Proof.K.Kept
import proofs.«166931_j7370163880494_1_alg».proof.Proof.K.Run
import proofs.«166931_j7370163880494_1_alg».proof.Proof.KI.Kept
import proofs.«166931_j7370163880494_1_alg».proof.Proof.KI.Run
import proofs.«166931_j7370163880494_1_alg».proof.Proof.KI.Value
import proofs.«166931_j7370163880494_1_alg».proof.Proof.RefValue

noncomputable section

namespace Cert.Proof

open Idealize.ShloMosaic Idealize.ShloMosaic.TcCoe Idealize.SL.Sem

/-- The word-level kernel runs, and its two argument arrays end unchanged: no line of the program writes them. -/
theorem frame_k : Cert.frame_Kernel := fun m ρ _ =>
  (θ_run Cert.Kernel.defs _ _).mono
    (fun r h c => ⟨(h c Cert.Kernel.main_arg0 rfl).trans (Cert.Kernel.Hand.V3_arg0 m c),
      (h c Cert.Kernel.main_arg1 rfl).trans (Cert.Kernel.Hand.V3_arg1 m c)⟩)
    (Cert.Kernel.Hand.run_main (F := Bits) m ρ)

/-- The same of the kernel over the extended reals. -/
theorem frame_ki : Cert.frame_KernelIdeal := fun m ρ _ =>
  (θ_run Cert.KernelIdeal.defs _ _).mono
    (fun r h c => ⟨(h c Cert.KernelIdeal.main_arg0 rfl).trans (Cert.KernelIdeal.Hand.V3_arg0 m c),
      (h c Cert.KernelIdeal.main_arg1 rfl).trans (Cert.KernelIdeal.Hand.V3_arg1 m c)⟩)
    (Cert.KernelIdeal.Hand.run_main (F := Ideal) m ρ)

/-- The reference runs, and its two argument arrays end unchanged: its run's post with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments, the kernel's result and the reference's are
    both the specification's loss of the kernel's argument arrays. -/
theorem algebraic : Cert.algebraic_KernelIdeal_ReferenceIdeal := by
  intro m ρ m' ρ' _ hagree
  refine ⟨fun c _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c Cert.KernelIdeal.main_v13 rfl).trans (Cert.KernelIdeal.Hand.kernel_value m c),
        (h c Cert.KernelIdeal.main_arg0 rfl).trans (Cert.KernelIdeal.Hand.V3_arg0 m c),
        (h c Cert.KernelIdeal.main_arg1 rfl).trans (Cert.KernelIdeal.Hand.V3_arg1 m c)⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v31_eq _ _).trans ((Cert.RefValue.ref_value _ _).trans ?_)
    rw [(hagree c).1, (hagree c).2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
